-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S128 : Shape := ⟨1, ![128]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S128 : S_.BroadcastsInDim S128 (![] : Fin 0 → Fin S128.rank)
  reducesTo_S128_S_d0 : S128.ReducesTo [0] S_
  reducesTo_S131072x128_S128_d0 : S131072x128.ReducesTo [0] S128

variable [Facts]

def fn_part1 {F : FTy → Type} [FloatOps F] (main_arg1 : FVec F S131072x128 .f32) (main_arg3 : IVec S128 32) (main_v13 : IVec S_ 1) (main_v15 : IVec S128 1) (main_c_5 : IVec S_ 32) : IVec S_ 1 :=
  let main_v16 : IVec S128 32 := broadcastInDim S128 ![] bcast_S_S128 main_c_5
  let main_v17 : IVec S128 1 := cmpi .slt main_arg3 main_v16
  let main_v18 : IVec S128 1 := andi main_v15 main_v17
  let main_c_6 : IVec S_ 1 := constantI S_ 1 1#1
  let main_v19 : IVec S_ 1 := (fun x v => Host.reduce IntOp.andi x v reducesTo_S128_S_d0 h_S_) main_v18 main_c_6
  let main_v20 : IVec S_ 1 := andi main_v13 main_v19
  let main_cst_7 : FVec F S_ .f32 := constant S_ .f32 0x00000000#32
  let main_v21 : FVec F S128 .f32 := (fun x v => Host.reduceAdd x v reducesTo_S131072x128_S128_d0 h_S_) main_arg1 main_cst_7
  let main_cst_8 : FVec F S_ .f32 := constant S_ .f32 0x2EDBE6FF#32
  let main_v22 : FVec F S128 .f32 := broadcastInDim S128 ![] bcast_S_S128 main_cst_8
  let main_v23 : FVec F S128 .f32 := addf main_v21 main_v22
  let main_cst_9 : FVec F S_ .f32 := constant S_ .f32 0x00000000#32
  let main_v24 : FVec F S128 .f32 := broadcastInDim S128 ![] bcast_S_S128 main_cst_9
  let main_v25 : IVec S128 1 := cmpf .une main_v23 main_v24
  let main_c_10 : IVec S_ 1 := constantI S_ 1 1#1
  let main_v26 : IVec S_ 1 := (fun x v => Host.reduce IntOp.andi x v reducesTo_S128_S_d0 h_S_) main_v25 main_c_10
  let main_v27 : IVec S_ 1 := andi main_v20 main_v26
  main_v27

def fn {F : FTy → Type} [FloatOps F] (main_arg0 : FVec F S131072x128 .f32) (main_arg1 : FVec F S131072x128 .f32) (main_arg2 : FVec F S128 .f32) (main_arg3 : IVec S128 32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S131072x128 .f32 := Host.absf main_arg1
  let main_cst_0 : FVec F S_ .f32 := constant S_ .f32 0x7F800000#32
  let main_v5 : FVec F S131072x128 .f32 := broadcastInDim S131072x128 ![] bcast_S_S131072x128 main_cst_0
  let main_v6 : IVec S131072x128 1 := cmpf .olt main_v4 main_v5
  let main_c_1 : IVec S_ 1 := constantI S_ 1 1#1
  let main_v7 : IVec S_ 1 := (fun x v => Host.reduce IntOp.andi x v reducesTo_S131072x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_c_4 : IVec S_ 32 := constantI S_ 32 0#32
  let main_v14 : IVec S128 32 := broadcastInDim S128 ![] bcast_S_S128 main_c_4
  let main_v15 : IVec S128 1 := cmpi .sge main_arg3 main_v14
  let main_c_5 : IVec S_ 32 := constantI S_ 32 32#32
  fn_part1 (F := F) main_arg1 main_arg3 main_v13 main_v15 main_c_5
-- ==== Kernel.lean ====
abbrev S131072x128 : Shape := ⟨2, ![131072, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S16x128 : Shape := ⟨2, ![16, 128]⟩
abbrev S8192x128 : Shape := ⟨2, ![8192, 128]⟩
abbrev S8x128 : Shape := ⟨2, ![8, 128]⟩
abbrev S_ : Shape := ⟨0, ![]⟩

abbrev nBuf : Space → Nat
  | .hbm => 42
  | .vmem => 9
  | .smem => 0
  | _ => 0

abbrev bufTy : (tb : Table) → Fin (tcTables nBuf tb) → BufTy
  | .hbm, ⟨0, _⟩ => ⟨S131072x128, .f32⟩
  | .hbm, ⟨1, _⟩ => ⟨S131072x128, .f32⟩
  | .hbm, ⟨2, _⟩ => ⟨S128, .f32⟩
  | .hbm, ⟨3, _⟩ => ⟨S128, .i32⟩
  | .hbm, ⟨4, _⟩ => ⟨S128x1, .i32⟩
  | .hbm, ⟨5, _⟩ => ⟨S1x128, .i32⟩
  | .hbm, ⟨6, _⟩ => ⟨S128x128, .i32⟩
  | .hbm, ⟨7, _⟩ => ⟨S128x128, .i32⟩
  | .hbm, ⟨8, _⟩ => ⟨S128x128, .i1⟩
  | .hbm, ⟨9, _⟩ => ⟨S128x128, .bf16⟩
  | .hbm, ⟨10, _⟩ => ⟨S16x128, .f32⟩
  | .hbm, ⟨11, _⟩ => ⟨S16x128, .f32⟩
  | .hbm, ⟨12, _⟩ => ⟨S1x128, .f32⟩
  | .hbm, ⟨13, _⟩ => ⟨S128, .f32⟩
  | .hbm, ⟨14, _⟩ => ⟨S1x128, .f32⟩
  | .hbm, ⟨15, _⟩ => ⟨S128, .f32⟩
  | .hbm, ⟨16, _⟩ => ⟨S128, .f32⟩
  | .hbm, ⟨17, _⟩ => ⟨S1x128, .f32⟩
  | .hbm, ⟨18, _⟩ => ⟨S128, .f32⟩
  | .hbm, ⟨19, _⟩ => ⟨S1x128, .f32⟩
  | .hbm, ⟨20, _⟩ => ⟨S128, .f32⟩
  | .hbm, ⟨21, _⟩ => ⟨S128, .f32⟩
  | .hbm, ⟨22, _⟩ => ⟨S_, .f32⟩
  | .hbm, ⟨23, _⟩ => ⟨S128, .f32⟩
  | .hbm, ⟨24, _⟩ => ⟨S128, .f32⟩
  | .hbm, ⟨25, _⟩ => ⟨S_, .f32⟩
  | .hbm, ⟨26, _⟩ => ⟨S128, .f32⟩
  | .hbm, ⟨27, _⟩ => ⟨S128, .f32⟩
  | .hbm, ⟨28, _⟩ => ⟨S_, .f32⟩
  | .hbm, ⟨29, _⟩ => ⟨S128, .f32⟩
  | .hbm, ⟨30, _⟩ => ⟨S128, .f32⟩
  | .hbm, ⟨31, _⟩ => ⟨S_, .f32⟩
  | .hbm, ⟨32, _⟩ => ⟨S128, .f32⟩
  | .hbm, ⟨33, _⟩ => ⟨S128, .f32⟩
  | .hbm, ⟨34, _⟩ => ⟨S128, .f32⟩
  | .hbm, ⟨35, _⟩ => ⟨S128, .f32⟩
  | .hbm, ⟨36, _⟩ => ⟨S128, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S128x128, .bf16⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S128_S128x1_0 : S128.BroadcastsInDim S128x1 (![0] : Fin 1 → Fin S128x1.rank)
  bcast_S128_S1x128_1 : S128.BroadcastsInDim S1x128 (![1] : Fin 1 → Fin S1x128.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  inb_S8x128_S8x128_0_0 : ∀ a, (![0, 0] : Fin 2 → Nat) a + S8x128.size a ≤ S8x128.size a
  h_S8x128 : 0 < S8x128.numel
  inb_S8192x128_S8192x128_0_0 : ∀ a, (![0, 0] : Fin 2 → Nat) a + S8192x128.size a ≤ S8192x128.size a
  h_S8192x128 : 0 < S8192x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S8x128_S1x128_0_0 : ∀ a, (![0, 0] : Fin 2 → Nat) a + S1x128.size a ≤ S8x128.size a
  h_S1x128 : 0 < S1x128.numel
  shapeCasts_S1x128_S1x128 : S1x128.ShapeCasts S1x128
  reduces_S8192x128_S128 : S8192x128.Reduces [0] S128
  shapeCasts_S128_S1x128 : S128.ShapeCasts S1x128
  slices_S16x128_S1x128_0_0 : S16x128.Slices ![0, 0] S1x128
  shapeCasts_S1x128_S128 : S1x128.ShapeCasts S128
  slices_S16x128_S1x128_8_0 : S16x128.Slices ![8, 0] S1x128
  bcast_S_S128 : S_.BroadcastsInDim S128 (![] : Fin 0 → Fin S128.rank)
  reducesTo_S128_S_d0 : S128.ReducesTo [0] S_
  h_S_ : 0 < S_.numel
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S131072x128.size a
  hwx0_0 : ∀ i : grid0.Coords, EltTy.bits .f32 = 32 ∨ (Rect.block (s := S131072x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S131072x128.size a
  hwx0_1 : ∀ i : grid0.Coords, EltTy.bits .f32 = 32 ∨ (Rect.block (s := S131072x128) S8192x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S16x128.size a
  hwx0_3 : ∀ i : grid0.Coords, EltTy.bits .f32 = 32 ∨ (Rect.block (s := S16x128) S8x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S16x128.size a
  hwx0_4 : ∀ i : grid0.Coords, EltTy.bits .f32 = 32 ∨ (Rect.block (s := S16x128) S8x128.size (cc0_transform_4 i) (hinb0_4 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6_0) S8x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_1) S8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S131072x128 : Shape := ⟨2, ![131072, 128]⟩
abbrev S128 : Shape := ⟨1, ![128]⟩
abbrev S_ : Shape := ⟨0, ![]⟩
abbrev S128x1 : Shape := ⟨2, ![128, 1]⟩
abbrev S1x32 : Shape := ⟨2, ![1, 32]⟩
abbrev S128x32 : Shape := ⟨2, ![128, 32]⟩
abbrev S131072x32 : Shape := ⟨2, ![131072, 32]⟩
abbrev S32x128 : Shape := ⟨2, ![32, 128]⟩
abbrev S1x128 : Shape := ⟨2, ![1, 128]⟩
abbrev S131072 : Shape := ⟨1, ![131072]⟩

abbrev nBuf : Space → Nat
  | .hbm => 48
  | .vmem => 0
  | .smem => 0
  | _ => 0

abbrev bufTy : (tb : Table) → Fin (tcTables nBuf tb) → BufTy
  | .hbm, ⟨0, _⟩ => ⟨S131072x128, .f32⟩
  | .hbm, ⟨1, _⟩ => ⟨S131072x128, .f32⟩
  | .hbm, ⟨2, _⟩ => ⟨S128, .f32⟩
  | .hbm, ⟨3, _⟩ => ⟨S128, .i32⟩
  | .hbm, ⟨4, _⟩ => ⟨S_, .f32⟩
  | .hbm, ⟨5, _⟩ => ⟨S128, .f32⟩
  | .hbm, ⟨6, _⟩ => ⟨S_, .f32⟩
  | .hbm, ⟨7, _⟩ => ⟨S128, .f32⟩
  | .hbm, ⟨8, _⟩ => ⟨S128, .f32⟩
  | .hbm, ⟨9, _⟩ => ⟨S_, .f32⟩
  | .hbm, ⟨10, _⟩ => ⟨S128, .f32⟩
  | .hbm, ⟨11, _⟩ => ⟨S128, .f32⟩
  | .hbm, ⟨12, _⟩ => ⟨S_, .f32⟩
  | .hbm, ⟨13, _⟩ => ⟨S128, .f32⟩
  | .hbm, ⟨14, _⟩ => ⟨S128, .f32⟩
  | .hbm, ⟨15, _⟩ => ⟨S128x1, .i32⟩
  | .hbm, ⟨16, _⟩ => ⟨S1x32, .i32⟩
  | .hbm, ⟨17, _⟩ => ⟨S128x32, .i32⟩
  | .hbm, ⟨18, _⟩ => ⟨S128x32, .i32⟩
  | .hbm, ⟨19, _⟩ => ⟨S128x32, .i1⟩
  | .hbm, ⟨20, _⟩ => ⟨S128x32, .f32⟩
  | .hbm, ⟨21, _⟩ => ⟨S131072x128, .f32⟩
  | .hbm, ⟨22, _⟩ => ⟨S131072x32, .f32⟩
  | .hbm, ⟨23, _⟩ => ⟨S32x128, .f32⟩
  | .hbm, ⟨24, _⟩ => ⟨S131072x128, .f32⟩
  | .hbm, ⟨25, _⟩ => ⟨S_, .f32⟩
  | .hbm, ⟨26, _⟩ => ⟨S131072x128, .f32⟩
  | .hbm, ⟨27, _⟩ => ⟨S131072x128, .f32⟩
  | .hbm, ⟨28, _⟩ => ⟨S131072x128, .f32⟩
  | .hbm, ⟨29, _⟩ => ⟨S131072x128, .f32⟩
  | .hbm, ⟨30, _⟩ => ⟨S_, .f32⟩
  | .hbm, ⟨31, _⟩ => ⟨S128, .f32⟩
  | .hbm, ⟨32, _⟩ => ⟨S128, .f32⟩
  | .hbm, ⟨33, _⟩ => ⟨S128, .f32⟩
  | .hbm, ⟨34, _⟩ => ⟨S1x128, .f32⟩
  | .hbm, ⟨35, _⟩ => ⟨S131072x128, .f32⟩
  | .hbm, ⟨36, _⟩ => ⟨S131072x128, .f32⟩
  | .hbm, ⟨37, _⟩ => ⟨S1x128, .f32⟩
  | .hbm, ⟨38, _⟩ => ⟨S131072x128, .f32⟩
  | .hbm, ⟨39, _⟩ => ⟨S131072x128, .f32⟩
  | .hbm, ⟨40, _⟩ => ⟨S131072x128, .f32⟩
  | .hbm, ⟨41, _⟩ => ⟨S_, .f32⟩
  | .hbm, ⟨42, _⟩ => ⟨S131072, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_cst_2 : Ref sig .tc := ⟨.hbm, 12, rfl⟩
abbrev main_v5 : Ref sig .tc := ⟨.hbm, 13, rfl⟩
abbrev main_v6 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_cst_7 : Ref sig .tc := ⟨.hbm, 45, rfl⟩
abbrev main_v28 : Ref sig .tc := ⟨.hbm, 46, rfl⟩
abbrev main_v29 : Ref sig .tc := ⟨.hbm, 47, rfl⟩

abbrev nD : Nat := 1
abbrev τ : Topo := Topo.v7x

variable {F : FTy → Type} [FloatOps F]

class Facts₀ : Prop where
  reducesTo_S131072x128_S128_d0 : S131072x128.ReducesTo [0] S128
  h_S_ : 0 < S_.numel
  bcast_S_S128 : S_.BroadcastsInDim S128 (![] : Fin 0 → Fin S128.rank)
  bcast_S128_S128x1_0 : S128.BroadcastsInDim S128x1 (![0] : Fin 1 → Fin S128x1.rank)
  bcast_S128x1_S128x32_0_1 : S128x1.BroadcastsInDim S128x32 (![0, 1] : Fin 2 → Fin S128x32.rank)
  bcast_S1x32_S128x32_0_1 : S1x32.BroadcastsInDim S128x32 (![0, 1] : Fin 2 → Fin S128x32.rank)
  transposes_S128x32_S32x128_1_0 : S128x32.Transposes [1, 0] S32x128
  bcast_S_S131072x128 : S_.BroadcastsInDim S131072x128 (![] : Fin 0 → Fin S131072x128.rank)
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  reducesTo_S131072x128_S131072_d1 : S131072x128.ReducesTo [1] S131072
  reducesTo_S131072_S_d0 : S131072.ReducesTo [0] S_
  dot_S131072x128_S128x32_S131072x32_1_0_0_1_n_n_wf : DotDims.WF S131072x128 S128x32 S131072x32 [1] [0] [0] [1] [] []
  dot_S131072x32_S32x128_S131072x128_1_0_0_1_n_n_wf : DotDims.WF S131072x32 S32x128 S131072x128 [1] [0] [0] [1] [] []

variable [Facts₀]

def dot_S131072x128_S128x32_S131072x32_1_0_0_1_n_n : DotDims S131072x128 S128x32 S131072x32 where
  lhsContracting := [1]
  rhsContracting := [0]
  lhsNonContracting := [0]
  rhsNonContracting := [1]
  lhsBatch := []
  rhsBatch := []
  wf := dot_S131072x128_S128x32_S131072x32_1_0_0_1_n_n_wf
def dot_S131072x32_S32x128_S131072x128_1_0_0_1_n_n : DotDims S131072x32 S32x128 S131072x128 where
  lhsContracting := [1]
  rhsContracting := [0]
  lhsNonContracting := [0]
  rhsNonContracting := [1]
  lhsBatch := []
  rhsBatch := []
  wf := dot_S131072x32_S32x128_S131072x128_1_0_0_1_n_n_wf

class Facts : Prop extends Facts₀ where

variable [Facts]
-- ==== Proof.KerPieces.lean ====
/-
  What one grid point of the fused kernel leaves in row 0 of each of its two accumulator blocks.

  Each accumulator block is an [8, 128] tile of which only row 0 is ever accumulated into.  At the first point of a
  half of the batch the whole tile is zeroed and row 0 is then read back (so it reads zero) and overwritten by
  zero-row + tile sum; at every later point row 0 of what the previous point left is read and overwritten by
  old row + tile sum.  The lemmas below read row 0 of what each case leaves as the stored row's payload, whose
  last argument is the row that was read.
-/
import proofs.«400292_j65549790872061_3_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx

variable {F : FTy → Type} [FloatOps F]

theorem hz2 : (![0, 0] : Fin 2 → Nat) = fun _ => 0 := funext fun a => by fin_cases a <;> rfl

/-- The rectangle of row 0 inside an accumulator tile. -/
abbrev row0 : Rect S8x128 := Rect.unit (s := S8x128) ![0, 0] S1x128.size inb_S8x128_S1x128_0_0

/-- Row 0's lane n, as an index of the tile, is lane n of the row rectangle. -/
theorem row0_emb (n : Fin 128) : row0.emb (ix2 (0 : Fin 1) n) = (ix2 (0 : Fin 8) n : S8x128.Idx) := by
  funext a
  apply Fin.ext
  match a with
  | ⟨0, _⟩ => rfl
  | ⟨1, _⟩ => show 0 + 1 * n.val = n.val; omega

/-- Row 0 of a tile, as a [1, 128] row. -/
abbrev rowOf (X : Vec F S8x128 .f32) : Vec F S1x128 .f32 := View.ld X row0

theorem rowOf_apply (X : Vec F S8x128 .f32) (n : Fin 128) : rowOf X (ix2 (0 : Fin 1) n) = X (ix2 (0 : Fin 8) n) := by
  show X (row0.emb (ix2 (0 : Fin 1) n)) = _
  rw [row0_emb]

/-- A later point of a half: row 0 of the loss accumulator ends at the stored payload over the row read. -/
theorem outB3_row0 (c : Dev nD) (i : grid0.Coords) (a2 : Memref sig .tc .vmem S8192x128 .f32) (h2 : a2.IsWhole) (a3 : Memref sig .tc .vmem S8192x128 .f32) (h3 : a3.IsWhole) (a4 : Memref sig .tc .vmem S128x128 .bf16) (h4 : a4.IsWhole) (a5 : Memref sig .tc .vmem S8x128 .f32) (h5 : a5.IsWhole) (a6 : Memref sig .tc .vmem S8x128 .f32) (h6 : a6.IsWhole) (hc : ¬cond0_0 i)
    (x0 x1 : Vec F S8192x128 .f32) (x2 : Vec F S128x128 .bf16) (xo3 xo4 : Vec F S8x128 .f32) (n : Fin 128) :
    out0_B_3 c i a2 h2 a3 h3 a4 h4 a5 h5 a6 h6 hc x0 x1 x2 xo3 xo4 (ix2 (0 : Fin 8) n)
      = k0_pay3 x0 x1 x2 (rowOf xo3) (ix2 (0 : Fin 1) n) := by
  unfold out0_B_3
  unfold kernelRun0_B
  dsimp only
  rw [← row0_emb n]
  refine (View.read_writes_cons_emb _ _ row0 _ [] (ix2 (0 : Fin 1) n)).trans ?_
  simp only [View.readAt_eq_ld, h2.read_unread, h3.read_unread, h4.read_unread, h5.read_unread,
    View.ld_unit_zero (S := S8192x128) hz2, View.ld_unit_zero (S := S128x128) hz2]

/-- A later point of a half: row 0 of the count accumulator. -/
theorem outB4_row0 (c : Dev nD) (i : grid0.Coords) (a2 : Memref sig .tc .vmem S8192x128 .f32) (h2 : a2.IsWhole) (a3 : Memref sig .tc .vmem S8192x128 .f32) (h3 : a3.IsWhole) (a4 : Memref sig .tc .vmem S128x128 .bf16) (h4 : a4.IsWhole) (a5 : Memref sig .tc .vmem S8x128 .f32) (h5 : a5.IsWhole) (a6 : Memref sig .tc .vmem S8x128 .f32) (h6 : a6.IsWhole) (hc : ¬cond0_0 i)
    (x0 x1 : Vec F S8192x128 .f32) (x2 : Vec F S128x128 .bf16) (xo3 xo4 : Vec F S8x128 .f32) (n : Fin 128) :
    out0_B_4 c i a2 h2 a3 h3 a4 h4 a5 h5 a6 h6 hc x0 x1 x2 xo3 xo4 (ix2 (0 : Fin 8) n)
      = k0_pay4 x1 (rowOf xo4) (ix2 (0 : Fin 1) n) := by
  unfold out0_B_4
  unfold kernelRun0_B
  dsimp only
  rw [← row0_emb n]
  refine (View.read_writes_cons_emb _ _ row0 _ [] (ix2 (0 : Fin 1) n)).trans ?_
  simp only [View.readAt_eq_ld, h3.read_unread, h6.read_unread, View.ld_unit_zero (S := S8192x128) hz2]

/-- Every index of a tile lies in the whole-tile rectangle. -/
theorem whole_cover (w : Vec F S8x128 .f32) (y : S8x128.Idx) :
    ∃ p ∈ [(⟨Rect.unit (s := S8x128) ![0, 0] S8x128.size inb_S8x128_S8x128_0_0, w⟩ : View.Piece (Elt F) S8x128 .f32)], y ∈ p.1.set :=
  ⟨_, List.mem_singleton_self _, View.mem_set_unit_zero hz2 inb_S8x128_S8x128_0_0 y⟩

/-- The first point of a half: the loss tile is zeroed, its row 0 read back and overwritten. -/
theorem outA3_row0 (c : Dev nD) (i : grid0.Coords) (a2 : Memref sig .tc .vmem S8192x128 .f32) (h2 : a2.IsWhole) (a3 : Memref sig .tc .vmem S8192x128 .f32) (h3 : a3.IsWhole) (a4 : Memref sig .tc .vmem S128x128 .bf16) (h4 : a4.IsWhole) (a5 : Memref sig .tc .vmem S8x128 .f32) (h5 : a5.IsWhole) (a6 : Memref sig .tc .vmem S8x128 .f32) (h6 : a6.IsWhole) (hc : cond0_0 i)
    (x0 x1 : Vec F S8192x128 .f32) (x2 : Vec F S128x128 .bf16) (n : Fin 128) :
    out0_A_3 c i a2 h2 a3 h3 a4 h4 a5 h5 a6 h6 hc x0 x1 x2 (ix2 (0 : Fin 8) n)
      = k0_pay3 x0 x1 x2 (rowOf (k0_pay1 (F := F))) (ix2 (0 : Fin 1) n) := by
  unfold out0_A_3
  rw [View.read_writes_eq_canon _ _ _ (cover0_A_3 c i a2 h2 a3 h3 a4 h4 a5 h5 a6 h6 hc x0 x1 x2)]
  unfold kernelRun0_A
  dsimp only
  sl_unfold_words
  rw [← row0_emb n]
  refine (View.canon_cons_emb row0 _ _ (ix2 (0 : Fin 1) n)).trans ?_
  rw [View.readCov_eq_canon_ld _ _ _ (whole_cover _), View.canon_unit_zero hz2]
  simp only [View.readAt_eq_ld, h2.read_unread, h3.read_unread, h4.read_unread,
    View.ld_unit_zero (S := S8192x128) hz2, View.ld_unit_zero (S := S128x128) hz2]

/-- The first point of a half: the count tile. -/
theorem outA4_row0 (c : Dev nD) (i : grid0.Coords) (a2 : Memref sig .tc .vmem S8192x128 .f32) (h2 : a2.IsWhole) (a3 : Memref sig .tc .vmem S8192x128 .f32) (h3 : a3.IsWhole) (a4 : Memref sig .tc .vmem S128x128 .bf16) (h4 : a4.IsWhole) (a5 : Memref sig .tc .vmem S8x128 .f32) (h5 : a5.IsWhole) (a6 : Memref sig .tc .vmem S8x128 .f32) (h6 : a6.IsWhole) (hc : cond0_0 i)
    (x0 x1 : Vec F S8192x128 .f32) (x2 : Vec F S128x128 .bf16) (n : Fin 128) :
    out0_A_4 c i a2 h2 a3 h3 a4 h4 a5 h5 a6 h6 hc x0 x1 x2 (ix2 (0 : Fin 8) n)
      = k0_pay4 x1 (rowOf (k0_pay2 (F := F))) (ix2 (0 : Fin 1) n) := by
  unfold out0_A_4
  rw [View.read_writes_eq_canon _ _ _ (cover0_A_4 c i a2 h2 a3 h3 a4 h4 a5 h5 a6 h6 hc x0 x1 x2)]
  unfold kernelRun0_A
  dsimp only
  sl_unfold_words
  rw [← row0_emb n]
  refine (View.canon_cons_emb row0 _ _ (ix2 (0 : Fin 1) n)).trans ?_
  rw [View.readCov_eq_canon_ld _ _ _ (whole_cover _), View.canon_unit_zero hz2]
  simp only [View.readAt_eq_ld, h3.read_unread, View.ld_unit_zero (S := S8192x128) hz2]

end Cert.KernelIdeal.Hand
end
-- ==== Proof.LibDotPlain.lean ====
/-
  The plain matrix product read at an index, at the ideal values: the matrix unit's product of an [m, k] block with a
  [k, n] block (the left operand's last axis against the right operand's first) into the zero accumulator, at (a, b), is
  `∑ c, A (a, c) · B (c, b)`: one finite sum over the contracted coordinate, no rounding and no order of summation left.
  Stated over the literal record of dimension numbers with its well-formedness fact a variable, so it applies to a
  program's own record whatever name that fact has.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {m n k : Nat}

/-- The matrix unit's product of an [m, k] block with a [k, n] block, accumulated from zero: entry (a, b) is the sum over
    the contracted coordinate `c` of `A (a, c) · B (c, b)`. -/
theorem matmul_zero_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], w⟩ : DotDims ⟨2, ![m, k]⟩ ⟨2, ![k, n]⟩ ⟨2, ![m, n]⟩) prec A B
        (constant ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibDotPlain

end
-- ==== Proof.KerPayload.lean ====
/-
  The two stored rows of the fused kernel, read lane by lane at the ideal values.

  The loss row: old row + the column sums, over the tile's 8192 rows r, of (x[r, n] - log(den[r, n])) * y[r, n], where
  den[r, n] = sum over j of exp(x[r, j]) * M[j, n] + eps and M is the 128 by 128 same-group matrix the tile is handed.
  The count row: old row + the column sums of y over the tile's rows.
-/
import proofs.«400292_j65549790872061_3_alg».proof.Proof.Gen.KernelIdeal.Skeleton
import proofs.«400292_j65549790872061_3_alg».proof.Proof.LibDotPlain
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx

/-- The reduced axis of a column sum: lane n's r-th summand sits at (r, n). -/
theorem lift_col (n : Fin 128) (r : Fin 8192) :
    (reduces_S8192x128_S128.lift (fun a => (ix2 (0 : Fin 1) n : S1x128.Idx) a.succ) r : S8192x128.Idx) = ix2 r n := by
  funext a
  apply Fin.ext
  match a with
  | ⟨0, _⟩ => rfl
  | ⟨1, _⟩ => rfl

/-- The count row, lane n. -/
theorem pay4_apply (v4 : Vec Ideal S8192x128 .f32) (v21 : Vec Ideal S1x128 .f32) (n : Fin 128) :
    k0_pay4 (F := Ideal) v4 v21 (ix2 (0 : Fin 1) n) = v21 (ix2 (0 : Fin 1) n) + ∑ r : Fin 8192, v4 (ix2 r n) := by
  unfold k0_pay4
  dsimp only
  rw [addf_apply, shapeCast_self]
  refine congrArg (_ + ·) ?_
  refine (shapeCast_addUnit_apply (![128] : Fin 1 → Nat) _ shapeCasts_S128_S1x128 (ix2 (0 : Fin 1) n)).trans ?_
  exact (Ideal.multiReduction_add_single v4 0x00000000#32 reduces_S8192x128_S128 (.inl rfl) rfl _).trans
    (Finset.sum_congr rfl fun r _ => congrArg v4 (lift_col n r))

/-- The loss row, lane n. -/
theorem pay3_apply (v3 v4 : Vec Ideal S8192x128 .f32) (v7 : Vec Ideal S128x128 .bf16) (v15 : Vec Ideal S1x128 .f32) (n : Fin 128) :
    k0_pay3 (F := Ideal) v3 v4 v7 v15 (ix2 (0 : Fin 1) n)
      = v15 (ix2 (0 : Fin 1) n) + ∑ r : Fin 8192,
          (v3 (ix2 r n) - Ideal.log ((∑ j : Fin 128, Ideal.exp (v3 (ix2 r j)) * v7 (ix2 j n)) + Ideal.ofBits .f32 0x2EDBE6FF#32))
            * v4 (ix2 r n) := by
  unfold k0_pay3
  dsimp only
  rw [addf_apply, shapeCast_self]
  refine congrArg (_ + ·) ?_
  refine (shapeCast_addUnit_apply (![128] : Fin 1 → Nat) _ shapeCasts_S128_S1x128 (ix2 (0 : Fin 1) n)).trans ?_
  refine (Ideal.multiReduction_add_single _ 0x00000000#32 reduces_S8192x128_S128 (.inl rfl) rfl _).trans ?_
  refine Finset.sum_congr rfl fun r _ => ?_
  rw [lift_col n r, shapeCast_self]
  show (v3 (ix2 r n) - Ideal.log (FloatOps.matmul (F := Ideal) dot_S8192x128_S128x128_S8192x128_1_0_0_1_n_n none
      (truncf (F := Ideal) .bf16 (exp (F := Ideal) v3) bitsLt_bf16_f32) v7 (constant (F := Ideal) S8192x128 .f32 0x00000000#32) (ix2 r n)
        + Ideal.ofBits .f32 0x2EDBE6FF#32)) * v4 (ix2 r n) = _
  refine congrArg (fun s => (v3 (ix2 r n) - Ideal.log (s + Ideal.ofBits .f32 0x2EDBE6FF#32)) * v4 (ix2 r n)) ?_
  exact Cert.LibDotPlain.matmul_zero_apply dot_S8192x128_S128x128_S8192x128_1_0_0_1_n_n_wf none
    (truncf (F := Ideal) .bf16 (exp (F := Ideal) v3) bitsLt_bf16_f32) v7 r n

end Cert.KernelIdeal.Hand
end
-- ==== Proof.Spec.lean ====
/-
  The weighted hierarchical cross-entropy loss, written once as a function of the four argument arrays at the ideal
  values (floats are extended reals, every operation exact): logits x[b, n] and targets y[b, n] over 131072 rows and
  128 nodes, depths d[n], and sibling-group ids g[n].

  Two spellings are given.  The first normalises node n of row b by the sum of exp x[b, j] over the nodes j whose
  group id EQUALS that of n, takes log-probabilities as x - log(denominator), sums them against the targets down each
  column, and only then applies the per-column weight.  The second goes through the one-hot matrix of the group ids
  over 32 groups (a sum over groups of group sums), takes log-probabilities as log(exp x / denominator), and weights
  every entry before summing rows and then the column of row sums.
-/
import Idealize.ShloMosaic.PureOps.Ideal
import Idealize.ShloMosaic.Lib.ValueIdx

noncomputable section

open scoped BigOperators

namespace Cert.Hand

open Idealize.ShloMosaic Idealize.ShloMosaic.ValueIdx

/-- Rows by nodes. -/
abbrev SBN : Shape := ⟨2, ![131072, 128]⟩
/-- Nodes. -/
abbrev SN : Shape := ⟨1, ![128]⟩

/-- The small positive constant added to every denominator (the binary32 nearest 1e-10). -/
def eps : EReal := Ideal.ofBits .f32 0x2EDBE6FF#32
/-- The number of nodes, 128. -/
def c128 : EReal := Ideal.ofBits .f32 0x43000000#32
/-- The number of rows, 131072. -/
def cB : EReal := Ideal.ofBits .f32 0x48000000#32
/-- Minus one half, the depth decay rate. -/
def mh : EReal := Ideal.ofBits .f32 0xBF000000#32
/-- Zero, the initial value of every sum. -/
def z : EReal := Ideal.ofBits .f32 0x00000000#32

variable (x y : SBN.Idx → EReal) (d : SN.Idx → EReal) (g : SN.Idx → BitVec 32)

/-- Column n's target count. -/
def colCount (n : Fin 128) : EReal := ∑ b : Fin 131072, y (ix2 b n)

/-- Node n's depth decay. -/
def decay (n : Fin 128) : EReal := Ideal.exp (mh * d (ix1 n))

/-! ## First spelling: equality of group ids -/

/-- 1 when nodes j and n carry the same group id, else 0. -/
def same (j n : Fin 128) : EReal := (((IntOp.cmpi .eq (g (ix1 j)) (g (ix1 n))).toNat : ℝ) : EReal)

/-- The softmax denominator of node n in row b. -/
def denK (b : Fin 131072) (n : Fin 128) : EReal := (∑ j : Fin 128, Ideal.exp (x (ix2 b j)) * same g j n) + eps

/-- The log-probability of node n in row b. -/
def lpK (b : Fin 131072) (n : Fin 128) : EReal := x (ix2 b n) - Ideal.log (denK x g b n)

/-- Column n's sum of log-probabilities against the targets. -/
def colLoss (n : Fin 128) : EReal := ∑ b : Fin 131072, lpK x g b n * y (ix2 b n)

/-- Column n's class weight. -/
def weight (n : Fin 128) : EReal := Ideal.div cB (c128 * (colCount y n + eps))

/-- The loss, first spelling. -/
def kerRes : EReal := Ideal.div (-(z + ∑ n : Fin 128, (weight y n * decay d n) * colLoss x y g n)) cB

/-! ## Second spelling: the one-hot matrix over 32 groups -/

/-- 1 when node n's group id is k, else 0. -/
def hot (n : Fin 128) (k : Fin 32) : EReal := (((IntOp.cmpi .eq (g (ix1 n)) (BitVec.ofNat 32 k.val)).toNat : ℝ) : EReal)

/-- Row b's sum of exp x over group k. -/
def groupSum (b : Fin 131072) (k : Fin 32) : EReal := ∑ j : Fin 128, Ideal.exp (x (ix2 b j)) * hot g j k

/-- The softmax denominator of node n in row b, through the groups. -/
def denR (b : Fin 131072) (n : Fin 128) : EReal := (∑ k : Fin 32, groupSum x g b k * hot g n k) + eps

/-- The log-probability of node n in row b, as the log of a quotient. -/
def lpR (b : Fin 131072) (n : Fin 128) : EReal := Ideal.log (Ideal.div (Ideal.exp (x (ix2 b n))) (denR x g b n))

/-- Column n's class weight, its count a sum started from zero. -/
def weightR (n : Fin 128) : EReal := Ideal.div cB (c128 * ((z + colCount y n) + eps))

/-- The loss, second spelling. -/
def refRes : EReal :=
  -(Ideal.div (z + ∑ b : Fin 131072, (z + ∑ n : Fin 128, (weightR y n * (lpR x g b n * decay d n)) * y (ix2 b n))) cB)

end Cert.Hand

end
-- ==== Proof.KerBlocks.lean ====
/-
  The blocks the fused kernel is handed at grid point t, read off the arrays the region finds.

  The grid is 2 halves by 8 tiles, walked in row-major order, so point t is tile t of the 16 tiles of 8192 rows: its
  logits and targets blocks are rows 8192 t ... 8192 t + 8191 of the two [131072, 128] arrays, and its third block is
  the whole 128 by 128 same-group matrix, whose entry (j, n) is 1 when nodes j and n carry the same group id and 0
  otherwise (the host computes it before the region from the group ids by two broadcasts, a compare and a convert).
-/
import proofs.«400292_j65549790872061_3_alg».proof.Proof.Gen.KernelIdeal.Frame
import proofs.«400292_j65549790872061_3_alg».proof.Proof.Spec
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx

variable (m : (ℓ : Loc nD τ sig) → Buf (Elt Ideal) ℓ)

/-- Where each window's block sits at point t: tile t of the two batch arrays, the whole matrix, and half t / 8 of
    the two accumulator arrays. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val / 8 ∧ win0_3.index t (1 : Fin 2) = 0
    ∧ win0_4.index t (0 : Fin 2) = t.val / 8 ∧ win0_4.index t (1 : Fin 2) = 0 :=
  (by decide +kernel : ∀ t : Fin grid0.N, _)

/-- The logits, targets and same-group blocks of point t, at their literal types. -/
abbrev xblk (c : Dev nD) (t : Fin cfg0.N) : Vec Ideal S8192x128 .f32 := iblk m c 0 t
abbrev yblk (c : Dev nD) (t : Fin cfg0.N) : Vec Ideal S8192x128 .f32 := iblk m c 1 t
abbrev mblk (c : Dev nD) (t : Fin cfg0.N) : Vec Ideal S128x128 .bf16 := iblk m c 2 t

/-- Row r of tile t is row 8192 t + r of the batch. -/
theorem tile_row_lt {t : ℕ} (ht : t < 16) (r : Fin 8192) : 8192 * t + r.val < 131072 := by
  have := r.isLt; omega

theorem xblk_apply (c : Dev nD) (t : Fin cfg0.N) (r : Fin 8192) (j : Fin 128) :
    xblk m c t (ix2 r j)
      = (V m c main_arg0 : S131072x128.Idx → EReal) (ix2 ⟨8192 * t.val + r.val, tile_row_lt (lt_of_lt_of_eq t.isLt N_0) r⟩ j) := by
  obtain ⟨h00, h01, -⟩ := idx_facts t
  unfold xblk iblk
  rw [View.read_apply]
  show V m c main_arg0 _ = V m c main_arg0 _
  congr 1
  funext a
  apply Fin.ext
  match a with
  | ⟨0, _⟩ => show win0_0.index t 0 * 8192 + 1 * r.val = 8192 * t.val + r.val; rw [h00]; omega
  | ⟨1, _⟩ => show win0_0.index t 1 * 128 + 1 * j.val = j.val; rw [h01]; omega

theorem yblk_apply (c : Dev nD) (t : Fin cfg0.N) (r : Fin 8192) (j : Fin 128) :
    yblk m c t (ix2 r j)
      = (V m c main_arg1 : S131072x128.Idx → EReal) (ix2 ⟨8192 * t.val + r.val, tile_row_lt (lt_of_lt_of_eq t.isLt N_0) r⟩ j) := by
  obtain ⟨-, -, h10, h11, -⟩ := idx_facts t
  unfold yblk iblk
  rw [View.read_apply]
  show V m c main_arg1 _ = V m c main_arg1 _
  congr 1
  funext a
  apply Fin.ext
  match a with
  | ⟨0, _⟩ => show win0_1.index t 0 * 8192 + 1 * r.val = 8192 * t.val + r.val; rw [h10]; omega
  | ⟨1, _⟩ => show win0_1.index t 1 * 128 + 1 * j.val = j.val; rw [h11]; omega

theorem mblk_apply (c : Dev nD) (t : Fin cfg0.N) (j n : Fin 128) :
    mblk m c t (ix2 j n) = (V m c main_v5 : S128x128.Idx → EReal) (ix2 j n) := by
  obtain ⟨-, -, -, -, h20, h21, -⟩ := idx_facts t
  unfold mblk iblk
  rw [View.read_apply]
  show V m c main_v5 _ = V m c main_v5 _
  congr 1
  funext a
  apply Fin.ext
  match a with
  | ⟨0, _⟩ => show win0_2.index t 0 * 128 + 1 * j.val = j.val; rw [h20]; omega
  | ⟨1, _⟩ => show win0_2.index t 1 * 128 + 1 * n.val = n.val; rw [h21]; omega

/-- A vector of group ids laid along the rows, then spread over the columns, reads at (j, n) its entry j. -/
theorem spread_rows (g : S128.Idx → BitVec 32) (j n : Fin 128) :
    broadcastInDim S128x128 ![0, 1] bcast_S128x1_S128x128_0_1 (broadcastInDim S128x1 ![0] bcast_S128_S128x1_0 g) (ix2 j n)
      = g (ix1 j) :=
  (broadcastInDim_apply _ bcast_S128x1_S128x128_0_1 _ (ix2 j n) (ix2 j (0 : Fin 1)) (fun a => match a with
    | ⟨0, _⟩ => by show j.val = if (128 : Nat) = 1 then 0 else j.val; rw [if_neg (by decide)]
    | ⟨1, _⟩ => by show 0 = if (1 : Nat) = 1 then 0 else n.val; rw [if_pos rfl])).trans
  (broadcastInDim_apply _ bcast_S128_S128x1_0 g (ix2 j (0 : Fin 1)) (ix1 j) (fun a => match a with
    | ⟨0, _⟩ => by show j.val = if (128 : Nat) = 1 then 0 else j.val; rw [if_neg (by decide)]))

/-- Laid along the columns, then spread over the rows, it reads at (j, n) its entry n. -/
theorem spread_cols (g : S128.Idx → BitVec 32) (j n : Fin 128) :
    broadcastInDim S128x128 ![0, 1] bcast_S1x128_S128x128_0_1 (broadcastInDim S1x128 ![1] bcast_S128_S1x128_1 g) (ix2 j n)
      = g (ix1 n) :=
  (broadcastInDim_apply _ bcast_S1x128_S128x128_0_1 _ (ix2 j n) (ix2 (0 : Fin 1) n) (fun a => match a with
    | ⟨0, _⟩ => by show 0 = if (1 : Nat) = 1 then 0 else j.val; rw [if_pos rfl]
    | ⟨1, _⟩ => by show n.val = if (128 : Nat) = 1 then 0 else n.val; rw [if_neg (by decide)])).trans
  (broadcastInDim_apply _ bcast_S128_S1x128_1 g (ix2 (0 : Fin 1) n) (ix1 n) (fun a => match a with
    | ⟨0, _⟩ => by show n.val = if (128 : Nat) = 1 then 0 else n.val; rw [if_neg (by decide)]))

/-- The same-group matrix the region finds, entry (j, n). -/
theorem same_matrix (c : Dev nD) (j n : Fin 128) :
    (V m c main_v5 : S128x128.Idx → EReal) (ix2 j n)
      = Cert.Hand.same (m ((c : Thread nD τ).loc main_arg3)) j n := by
  have e : (V m c main_v5 : S128x128.Idx → EReal)
      = uitofp (F := Ideal) .bf16 (cmpi .eq
          (broadcastInDim S128x128 ![0, 1] bcast_S128x1_S128x128_0_1 (broadcastInDim S128x1 ![0] bcast_S128_S128x1_0 (m ((c : Thread nD τ).loc main_arg3))))
          (broadcastInDim S128x128 ![0, 1] bcast_S1x128_S128x128_0_1 (broadcastInDim S1x128 ![1] bcast_S128_S1x128_1 (m ((c : Thread nD τ).loc main_arg3))))) := by
    show StableHlo.after hostOps0 (fun b => m (c, b)) (Proc.devRef .tc main_v5) = _
    after_results
  rw [e]
  show (((IntOp.cmpi .eq (broadcastInDim S128x128 ![0, 1] bcast_S128x1_S128x128_0_1 (broadcastInDim S128x1 ![0] bcast_S128_S128x1_0 (m ((c : Thread nD τ).loc main_arg3))) (ix2 j n))
      (broadcastInDim S128x128 ![0, 1] bcast_S1x128_S128x128_0_1 (broadcastInDim S1x128 ![1] bcast_S128_S1x128_1 (m ((c : Thread nD τ).loc main_arg3))) (ix2 j n))).toNat : ℝ) : EReal) = _
  rw [spread_rows, spread_cols]
  rfl

/-- The three blocks in terms of the argument arrays as launched. -/
theorem xblk_arg (c : Dev nD) (t : Fin cfg0.N) (r : Fin 8192) (j : Fin 128) :
    xblk m c t (ix2 r j)
      = (m ((c : Thread nD τ).loc main_arg0) : S131072x128.Idx → EReal)
          (ix2 ⟨8192 * t.val + r.val, tile_row_lt (lt_of_lt_of_eq t.isLt N_0) r⟩ j) := by
  rw [xblk_apply, V_main_arg0]

theorem yblk_arg (c : Dev nD) (t : Fin cfg0.N) (r : Fin 8192) (j : Fin 128) :
    yblk m c t (ix2 r j)
      = (m ((c : Thread nD τ).loc main_arg1) : S131072x128.Idx → EReal)
          (ix2 ⟨8192 * t.val + r.val, tile_row_lt (lt_of_lt_of_eq t.isLt N_0) r⟩ j) := by
  rw [yblk_apply, V_main_arg1]

theorem mblk_arg (c : Dev nD) (t : Fin cfg0.N) (j n : Fin 128) :
    mblk m c t (ix2 j n) = Cert.Hand.same (m ((c : Thread nD τ).loc main_arg3)) j n := by
  rw [mblk_apply, same_matrix]

end Cert.KernelIdeal.Hand
end
-- ==== Proof.LibTile.lean ====
/- Sums over a range cut into equal tiles. A sum over `Fin (m * n)` is the sum over the `m` tiles of the sums over the
   `n` places inside a tile, place `p` of tile `t` being `n * t + p`; and an accumulator that starts at zero plus the
   first tile's sum and adds one tile's sum per step ends at the whole sum. Stated over any additive commutative monoid,
   then at the literal sizes 20 tiles of 5000 in 100000. -/
import Mathlib.Algebra.BigOperators.Fin
import Mathlib.Algebra.BigOperators.Intervals
import Mathlib.Logic.Equiv.Fin.Basic

namespace Cert.Hand.LibTile

variable {M : Type*} [AddCommMonoid M]

/-- Place `p` of tile `t` lies inside the range. -/
theorem tile_lt {m n N : ℕ} (h : m * n = N) {t p : ℕ} (ht : t < m) (hp : p < n) : n * t + p < N := by
  subst h
  calc n * t + p < n * t + n := Nat.add_lt_add_left hp _
    _ = n * (t + 1) := (Nat.mul_succ n t).symm
    _ ≤ n * m := Nat.mul_le_mul_left n ht
    _ = m * n := Nat.mul_comm n m

/-- The whole sum is the sum over tiles of the sums inside each tile. -/
theorem sum_tiles {m n N : ℕ} (h : m * n = N) (f : Fin N → M) :
    ∑ t : Fin m, ∑ p : Fin n, f ⟨n * t.val + p.val, tile_lt h t.isLt p.isLt⟩ = ∑ r : Fin N, f r := by
  subst h
  rw [← Fintype.sum_prod_type (f := fun x : Fin m × Fin n => f ⟨n * x.1.val + x.2.val, tile_lt rfl x.1.isLt x.2.isLt⟩),
    ← Equiv.sum_comp finProdFinEquiv f]
  refine Finset.sum_congr rfl fun x _ => congrArg f (Fin.ext ?_)
  show n * x.1.val + x.2.val = x.2.val + n * x.1.val
  exact Nat.add_comm _ _

/-- An accumulator that is zero plus tile 0's sum after the first step and gains tile `k + 1`'s sum at step `k + 1`
    holds, after step `k`, the sum of the tiles up to `k`. -/
theorem acc_eq_sum_range {n : ℕ} (a : ℕ → M) (g : ℕ → Fin n → M) (m : ℕ)
    (h0 : a 0 = 0 + ∑ p : Fin n, g 0 p) (hs : ∀ k, k + 1 < m → a (k + 1) = a k + ∑ p : Fin n, g (k + 1) p) :
    ∀ k, k < m → a k = ∑ t ∈ Finset.range (k + 1), ∑ p : Fin n, g t p
  | 0, _ => by rw [h0, zero_add, Finset.sum_range_one]
  | k + 1, hk => by
    rw [hs k hk, acc_eq_sum_range a g m h0 hs k (Nat.lt_of_succ_lt hk), Finset.sum_range_succ _ (k + 1)]

/-- So after the last of `m` steps it holds the sum over all tiles, -/
theorem acc_last_eq_sum_fin {n : ℕ} (a : ℕ → M) (g : ℕ → Fin n → M) (m : ℕ) (hm : 0 < m)
    (h0 : a 0 = 0 + ∑ p : Fin n, g 0 p) (hs : ∀ k, k + 1 < m → a (k + 1) = a k + ∑ p : Fin n, g (k + 1) p) :
    a (m - 1) = ∑ t : Fin m, ∑ p : Fin n, g t.val p := by
  rw [acc_eq_sum_range a g m h0 hs (m - 1) (Nat.sub_lt hm Nat.one_pos), Nat.sub_add_cancel hm,
    Finset.sum_range fun t => ∑ p : Fin n, g t p]

/-- and when tile `t`'s place `p` is entry `n * t + p` of a function on the whole range, the whole sum of that
    function. -/
theorem acc_last_eq_sum {m n N : ℕ} (h : m * n = N) (hm : 0 < m) (f : Fin N → M) (a : ℕ → M) (g : ℕ → Fin n → M)
    (hg : ∀ (t : ℕ) (ht : t < m) (p : Fin n), g t p = f ⟨n * t + p.val, tile_lt h ht p.isLt⟩)
    (h0 : a 0 = 0 + ∑ p : Fin n, g 0 p) (hs : ∀ k, k + 1 < m → a (k + 1) = a k + ∑ p : Fin n, g (k + 1) p) :
    a (m - 1) = ∑ r : Fin N, f r := by
  rw [acc_last_eq_sum_fin a g m hm h0 hs, ← sum_tiles h f]
  exact Finset.sum_congr rfl fun t _ => Finset.sum_congr rfl fun p _ => hg t.val t.isLt p

/-! ## At 20 tiles of 5000 rows in 100000 -/

/-- Row `p` of block `t` is a row of the array. -/
theorem row_lt {t p : ℕ} (ht : t < 20) (hp : p < 5000) : 5000 * t + p < 100000 := tile_lt (m := 20) (n := 5000) rfl ht hp

/-- The sum over the 100000 rows is the sum over the 20 blocks of the sums over each block's 5000 rows. -/
theorem sum_blocks (f : Fin 100000 → M) :
    ∑ t : Fin 20, ∑ p : Fin 5000, f ⟨5000 * t.val + p.val, row_lt t.isLt p.isLt⟩ = ∑ r : Fin 100000, f r :=
  sum_tiles (m := 20) (n := 5000) rfl f

/-- An accumulator started at zero plus block 0's sum and fed one block's sum per step holds, after the twentieth step,
    the sum over all 100000 rows. -/
theorem acc_blocks (f : Fin 100000 → M) (a : ℕ → M) (g : ℕ → Fin 5000 → M)
    (hg : ∀ (t : ℕ) (ht : t < 20) (p : Fin 5000), g t p = f ⟨5000 * t + p.val, row_lt ht p.isLt⟩)
    (h0 : a 0 = 0 + ∑ p : Fin 5000, g 0 p) (hs : ∀ k, k + 1 < 20 → a (k + 1) = a k + ∑ p : Fin 5000, g (k + 1) p) :
    a 19 = ∑ r : Fin 100000, f r :=
  acc_last_eq_sum (m := 20) (n := 5000) rfl (by decide) f a g hg h0 hs

end Cert.Hand.LibTile
-- ==== Proof.KerAccum.lean ====
/-
  The two accumulators over the grid.

  Row 0 of the loss accumulator after point t holds, for lane n, zero plus the sum over the rows b of the tiles walked so
  far in t's half of lp(b, n) * y(b, n); row 0 of the count accumulator the same with y(b, n) alone.  Each half of the
  batch is 8 consecutive tiles of 8192 rows: the first point of a half starts from the zero row, every later one adds
  its tile's column sums to what the point before left.  So after the last point of half h the rows hold the sums over
  the 65536 rows of that half, and the two halves together the sums over the whole batch of 131072 rows.
-/
import proofs.«400292_j65549790872061_3_alg».proof.Proof.KerPieces
import proofs.«400292_j65549790872061_3_alg».proof.Proof.KerPayload
import proofs.«400292_j65549790872061_3_alg».proof.Proof.KerBlocks
import proofs.«400292_j65549790872061_3_alg».proof.Proof.LibTile

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx

variable (m : (ℓ : Loc nD τ sig) → Buf (Elt Ideal) ℓ)

/-- The logits, targets and group ids as launched. -/
abbrev xs (c : Dev nD) : Cert.Hand.SBN.Idx → EReal := m ((c : Thread nD τ).loc main_arg0)
abbrev ys (c : Dev nD) : Cert.Hand.SBN.Idx → EReal := m ((c : Thread nD τ).loc main_arg1)
abbrev gs (c : Dev nD) : Cert.Hand.SN.Idx → BitVec 32 := m ((c : Thread nD τ).loc main_arg3)

/-- Row b's contribution to column n of the loss sums, and of the counts. -/
def termL (c : Dev nD) (n : Fin 128) (b : Fin 131072) : EReal :=
  Cert.Hand.lpK (xs m c) (gs m c) b n * ys m c (ix2 b n)
def termC (c : Dev nD) (n : Fin 128) (b : Fin 131072) : EReal := ys m c (ix2 b n)

/-- Row 0, lane n, of the two accumulators after point t. -/
def accL (c : Dev nD) (t : ℕ) (ht : t < cfg0.N) (n : Fin 128) : EReal := (outsAt0 m c t ht).1 (ix2 (0 : Fin 8) n)
def accC (c : Dev nD) (t : ℕ) (ht : t < cfg0.N) (n : Fin 128) : EReal := (outsAt0 m c t ht).2 (ix2 (0 : Fin 8) n)

/-- One summand of a tile's loss column sum is the batch row's contribution. -/
theorem tile_termL (c : Dev nD) (t : Fin cfg0.N) (r : Fin 8192) (n : Fin 128) :
    (xblk m c t (ix2 r n) - Ideal.log ((∑ j : Fin 128, Ideal.exp (xblk m c t (ix2 r j)) * mblk m c t (ix2 j n))
        + Ideal.ofBits .f32 0x2EDBE6FF#32)) * yblk m c t (ix2 r n)
      = termL m c n ⟨8192 * t.val + r.val, tile_row_lt (lt_of_lt_of_eq t.isLt N_0) r⟩ := by
  unfold termL Cert.Hand.lpK Cert.Hand.denK Cert.Hand.eps
  rw [xblk_arg, yblk_arg]
  refine congrArg (fun s => (_ - Ideal.log (s + _)) * _) ?_
  exact Finset.sum_congr rfl fun j _ => by rw [xblk_arg, mblk_arg]

theorem tile_termC (c : Dev nD) (t : Fin cfg0.N) (r : Fin 8192) (n : Fin 128) :
    yblk m c t (ix2 r n) = termC m c n ⟨8192 * t.val + r.val, tile_row_lt (lt_of_lt_of_eq t.isLt N_0) r⟩ := by
  unfold termC
  rw [yblk_arg]

/-- The first point of a half starts the loss row from zero. -/
theorem accL_first (c : Dev nD) (t : Fin cfg0.N) (h0 : t.val % 8 = 0) (n : Fin 128) :
    accL m c t.val t.isLt n
      = Cert.Hand.z + ∑ r : Fin 8192, termL m c n ⟨8192 * t.val + r.val, tile_row_lt (lt_of_lt_of_eq t.isLt N_0) r⟩ := by
  unfold accL
  rw [outsAt0_A m c t h0]
  dsimp only
  refine (outA3_row0 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (xblk m c t) (yblk m c t) (mblk m c t) n).trans ?_
  refine (pay3_apply (xblk m c t) (yblk m c t) (mblk m c t) (rowOf (k0_pay1 (F := Ideal))) n).trans ?_
  rw [rowOf_apply]
  refine congrArg₂ (· + ·) rfl (Finset.sum_congr rfl fun r _ => tile_termL m c t r n)

/-- Every later point adds its tile to what the point before left. -/
theorem accL_next (c : Dev nD) (t : Fin cfg0.N) (h0 : ¬t.val % 8 = 0) (n : Fin 128) :
    accL m c t.val t.isLt n
      = accL m c (t.val - 1) (Nat.lt_of_le_of_lt (Nat.sub_le _ _) t.isLt) n
        + ∑ r : Fin 8192, termL m c n ⟨8192 * t.val + r.val, tile_row_lt (lt_of_lt_of_eq t.isLt N_0) r⟩ := by
  unfold accL
  rw [outsAt0_B m c t h0]
  dsimp only
  refine (outB3_row0 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (xblk m c t) (yblk m c t) (mblk m c t)
    (outsAt0 m c (t.val - 1) (Nat.lt_of_le_of_lt (Nat.sub_le _ _) t.isLt)).1 (outsAt0 m c (t.val - 1) (Nat.lt_of_le_of_lt (Nat.sub_le _ _) t.isLt)).2 n).trans ?_
  refine (pay3_apply (xblk m c t) (yblk m c t) (mblk m c t) (rowOf (outsAt0 m c (t.val - 1) (Nat.lt_of_le_of_lt (Nat.sub_le _ _) t.isLt)).1) n).trans ?_
  rw [rowOf_apply]
  refine congrArg₂ (· + ·) rfl (Finset.sum_congr rfl fun r _ => tile_termL m c t r n)

theorem accC_first (c : Dev nD) (t : Fin cfg0.N) (h0 : t.val % 8 = 0) (n : Fin 128) :
    accC m c t.val t.isLt n
      = Cert.Hand.z + ∑ r : Fin 8192, termC m c n ⟨8192 * t.val + r.val, tile_row_lt (lt_of_lt_of_eq t.isLt N_0) r⟩ := by
  unfold accC
  rw [outsAt0_A m c t h0]
  dsimp only
  refine (outA4_row0 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (xblk m c t) (yblk m c t) (mblk m c t) n).trans ?_
  refine (pay4_apply (yblk m c t) (rowOf (k0_pay2 (F := Ideal))) n).trans ?_
  rw [rowOf_apply]
  refine congrArg₂ (· + ·) rfl (Finset.sum_congr rfl fun r _ => tile_termC m c t r n)

theorem accC_next (c : Dev nD) (t : Fin cfg0.N) (h0 : ¬t.val % 8 = 0) (n : Fin 128) :
    accC m c t.val t.isLt n
      = accC m c (t.val - 1) (Nat.lt_of_le_of_lt (Nat.sub_le _ _) t.isLt) n
        + ∑ r : Fin 8192, termC m c n ⟨8192 * t.val + r.val, tile_row_lt (lt_of_lt_of_eq t.isLt N_0) r⟩ := by
  unfold accC
  rw [outsAt0_B m c t h0]
  dsimp only
  refine (outB4_row0 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (xblk m c t) (yblk m c t) (mblk m c t)
    (outsAt0 m c (t.val - 1) (Nat.lt_of_le_of_lt (Nat.sub_le _ _) t.isLt)).1 (outsAt0 m c (t.val - 1) (Nat.lt_of_le_of_lt (Nat.sub_le _ _) t.isLt)).2 n).trans ?_
  refine (pay4_apply (yblk m c t) (rowOf (outsAt0 m c (t.val - 1) (Nat.lt_of_le_of_lt (Nat.sub_le _ _) t.isLt)).2) n).trans ?_
  rw [rowOf_apply]
  refine congrArg₂ (· + ·) rfl (Finset.sum_congr rfl fun r _ => tile_termC m c t r n)

end Cert.KernelIdeal.Hand
end
-- ==== Proof.KerSums.lean ====
/-
  The accumulators after the last point of each half, and the two halves together.

  Half h is the tiles 8 h ... 8 h + 7, rows 65536 h ... 65536 h + 65535 of the batch.  Row 0 of an accumulator after
  point 8 h + 7 is the sum of its summand over those rows, and the two halves add up to the sum over all 131072 rows.
-/
import proofs.«400292_j65549790872061_3_alg».proof.Proof.KerAccum

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx

variable (m : (ℓ : Loc nD τ sig) → Buf (Elt Ideal) ℓ)

theorem cfgN : cfg0.N = 16 := N_0

theorem half_row_lt {h : ℕ} (hh : h < 2) (q : Fin 65536) : 65536 * h + q.val < 131072 := by
  have := q.isLt; omega

/-- A running row that starts a half from zero plus its first tile and adds one tile per point ends the half at the
    sum over the half's rows. -/
theorem half_sum (f : Fin 131072 → EReal) (a : (t : ℕ) → t < cfg0.N → EReal)
    (hfirst : ∀ t : Fin cfg0.N, t.val % 8 = 0 →
      a t.val t.isLt = Cert.Hand.z + ∑ r : Fin 8192, f ⟨8192 * t.val + r.val, tile_row_lt (lt_of_lt_of_eq t.isLt N_0) r⟩)
    (hnext : ∀ t : Fin cfg0.N, ¬t.val % 8 = 0 →
      a t.val t.isLt = a (t.val - 1) (Nat.lt_of_le_of_lt (Nat.sub_le _ _) t.isLt)
        + ∑ r : Fin 8192, f ⟨8192 * t.val + r.val, tile_row_lt (lt_of_lt_of_eq t.isLt N_0) r⟩)
    (h : ℕ) (hh : h < 2) :
    a (8 * h + 7) (by rw [cfgN]; omega) = ∑ q : Fin 65536, f ⟨65536 * h + q.val, half_row_lt hh q⟩ := by
  have hN : cfg0.N = 16 := cfgN
  -- the running row and the tiles' summands as total functions of the step within the half
  let a' : ℕ → EReal := fun k => if hk : 8 * h + k < cfg0.N then a (8 * h + k) hk else 0
  let g' : ℕ → Fin 8192 → EReal := fun k p =>
    if hk : 8 * h + k < 16 then f ⟨8192 * (8 * h + k) + p.val, tile_row_lt hk p⟩ else 0
  have key := Cert.Hand.LibTile.acc_last_eq_sum (M := EReal) (m := 8) (n := 8192) (N := 65536) rfl (by decide)
    (fun q : Fin 65536 => f ⟨65536 * h + q.val, half_row_lt hh q⟩) a' g'
    (fun t ht p => by
      show (if hk : 8 * h + t < 16 then f ⟨8192 * (8 * h + t) + p.val, tile_row_lt hk p⟩ else 0) = _
      rw [dif_pos (by omega)]
      exact congrArg f (Fin.ext (by show 8192 * (8 * h + t) + p.val = 65536 * h + (8192 * t + p.val); omega)))
    (by
      show (if hk : 8 * h + 0 < cfg0.N then a (8 * h + 0) hk else 0) = 0 + ∑ p : Fin 8192, g' 0 p
      rw [dif_pos (by rw [hN]; omega)]
      have e := hfirst ⟨8 * h + 0, by rw [hN]; omega⟩ (by show (8 * h + 0) % 8 = 0; omega)
      rw [show Cert.Hand.z = (0 : EReal) from Ideal.ofBits_zero_f32] at e
      refine e.trans (congrArg (0 + ·) (Finset.sum_congr rfl fun p _ => ?_))
      show _ = (if hk : 8 * h + 0 < 16 then f ⟨8192 * (8 * h + 0) + p.val, tile_row_lt hk p⟩ else 0)
      rw [dif_pos (by omega)])
    (fun k hk => by
      show (if hk' : 8 * h + (k + 1) < cfg0.N then a (8 * h + (k + 1)) hk' else 0)
        = (if hk' : 8 * h + k < cfg0.N then a (8 * h + k) hk' else 0) + ∑ p : Fin 8192, g' (k + 1) p
      rw [dif_pos (by rw [hN]; omega), dif_pos (by rw [hN]; omega)]
      have e := hnext ⟨8 * h + (k + 1), by rw [hN]; omega⟩ (by show ¬(8 * h + (k + 1)) % 8 = 0; omega)
      refine e.trans (congrArg₂ (· + ·) rfl (Finset.sum_congr rfl fun p _ => ?_))
      show _ = (if hk : 8 * h + (k + 1) < 16 then f ⟨8192 * (8 * h + (k + 1)) + p.val, tile_row_lt hk p⟩ else 0)
      rw [dif_pos (by omega)])
  show a (8 * h + 7) _ = _
  have : a' (8 - 1) = a (8 * h + 7) (by rw [hN]; omega) := by
    show (if hk : 8 * h + (8 - 1) < cfg0.N then a (8 * h + (8 - 1)) hk else 0) = _
    rw [dif_pos (by rw [hN]; omega)]
  rw [← this]
  exact key

/-- The two halves together are the whole batch. -/
theorem halves_sum (f : Fin 131072 → EReal) :
    (∑ q : Fin 65536, f ⟨65536 * 0 + q.val, half_row_lt (by decide) q⟩)
      + (∑ q : Fin 65536, f ⟨65536 * 1 + q.val, half_row_lt (by decide) q⟩) = ∑ b : Fin 131072, f b := by
  have := Cert.Hand.LibTile.sum_tiles (M := EReal) (m := 2) (n := 65536) (N := 131072) rfl f
  rw [Fin.sum_univ_two] at this
  exact this

end Cert.KernelIdeal.Hand
end
-- ==== Proof.KerArrays.lean ====
/-
  The two accumulator arrays after the run, at the rows the host reads.

  The [16, 128] accumulator arrays are written back twice: half h's [8, 128] tile after its last point 8 h + 7, into rows
  8 h ... 8 h + 7.  So row 8 h of an array holds, lane by lane, row 0 of what point 8 h + 7 left in the tile.
-/
import proofs.«400292_j65549790872061_3_alg».proof.Proof.KerSums

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx

variable (m : (ℓ : Loc nD τ sig) → Buf (Elt Ideal) ℓ)

/-- The accumulator windows move their whole [8, 128] tile at every point. -/
theorem out_facts : ∀ t : Fin cfg0.N,
    win0_3.xsize (grid0.coords t) (0 : Fin 2) = 8 ∧ win0_3.xsize (grid0.coords t) (1 : Fin 2) = 128
    ∧ win0_4.xsize (grid0.coords t) (0 : Fin 2) = 8 ∧ win0_4.xsize (grid0.coords t) (1 : Fin 2) = 128 :=
  (by decide +kernel : ∀ t : Fin grid0.N, _)

theorem accL_congr (c : Dev nD) {a b : ℕ} (e : a = b) (ha : a < cfg0.N) (hb : b < cfg0.N) (n : Fin 128) :
    accL m c a ha n = accL m c b hb n := by subst e; rfl
theorem accC_congr (c : Dev nD) {a b : ℕ} (e : a = b) (ha : a < cfg0.N) (hb : b < cfg0.N) (n : Fin 128) :
    accC m c a ha n = accC m c b hb n := by subst e; rfl

/-- Row 8 h of the loss array after the run. -/
theorem arr3_row (c : Dev nD) (h : ℕ) (hh : h < 2) (n : Fin 128) :
    ((dats m 0 c).arrAt 3 cfg0.N : S16x128.Idx → EReal) (ix2 (⟨8 * h, by omega⟩ : Fin 16) n)
      = accL m c (8 * h + 7) (by rw [cfgN]; omega) n := by
  have hN : cfg0.N = 16 := cfgN
  have ht : 8 * h + 7 < cfg0.N := by rw [hN]; omega
  have hf : (cfg0.win 3).flush ⟨8 * h + 7, ht⟩ = true := (flush0_3 ⟨8 * h + 7, ht⟩).mpr (by show (8 * h + 7) % 8 = 7; omega)
  refine (dats m 0 c).arrAt_forall_of_flushed 3
    (fun i v => ∀ (n' : Fin 128) (h' : ℕ) (hh' : h' < 2), i = (ix2 (⟨8 * h', by omega⟩ : Fin 16) n' : S16x128.Idx) →
      v = accL m c (8 * h' + 7) (by rw [cfgN]; omega) n')
    (fun t' hf' y n' h' hh' he => ?_) cfg0.N ⟨8 * h + 7, ht⟩ (ix2 (⟨8 * h, by omega⟩ : Fin 16) n) ht hf ?_ n h hh rfl
  · -- what a flushing point writes back
    obtain ⟨-, -, -, -, -, -, h30, h31, -⟩ := idx_facts t'
    obtain ⟨x30, x31, -⟩ := out_facts t'
    have hm : t'.val % 8 = 7 := (flush0_3 t').mp hf'
    have hlt : t'.val < 16 := lt_of_lt_of_eq t'.isLt hN
    have y0 : (y 0).val < 8 := lt_of_lt_of_eq (y 0).isLt x30
    have e0 : win0_3.index t' 0 * 8 + 1 * (y 0).val = 8 * h' := congrArg (fun i : S16x128.Idx => (i 0).val) he
    have e1 : win0_3.index t' 1 * 128 + 1 * (y 1).val = n'.val := congrArg (fun i : S16x128.Idx => (i 1).val) he
    rw [h30] at e0
    rw [h31] at e1
    have et : t'.val = 8 * h' + 7 := by omega
    have ey0 : (y 0).val = 0 := by omega
    have ey1 : (y 1).val = n'.val := by omega
    rw [cast_eq]
    show (cfg0.win 3).cut (grid0.coords t') ((dats m 0 c).after 3 t') y = _
    rw [after0_3]
    refine Eq.trans ?_ (accL_congr m c et t'.isLt _ n')
    show (outsAt0 m c t'.val t'.isLt).1 _ = (outsAt0 m c t'.val t'.isLt).1 (ix2 (0 : Fin 8) n')
    refine congrArg _ (funext fun a => Fin.ext ?_)
    match a with
    | ⟨0, _⟩ => exact ey0
    | ⟨1, _⟩ => exact ey1
  · -- row 8 h lies in the tile written back after point 8 h + 7
    obtain ⟨-, -, -, -, -, -, h30, h31, -⟩ := idx_facts ⟨8 * h + 7, ht⟩
    obtain ⟨x30, x31, -⟩ := out_facts ⟨8 * h + 7, ht⟩
    show (ix2 (⟨8 * h, by omega⟩ : Fin 16) n : S16x128.Idx) ∈ ((View.whole main_v6_0).slice (win0_3.rect ⟨8 * h + 7, ht⟩)).set
    rw [View.set_slice_whole, Rect.mem_set_unit]
    intro a
    match a with
    | ⟨0, _⟩ =>
      show win0_3.index ⟨8 * h + 7, ht⟩ 0 * win0_3.size 0 ≤ 8 * h ∧ 8 * h < win0_3.index ⟨8 * h + 7, ht⟩ 0 * win0_3.size 0 + win0_3.xsize (grid0.coords ⟨8 * h + 7, ht⟩) 0
      rw [h30, x30]
      show (8 * h + 7) / 8 * 8 ≤ 8 * h ∧ 8 * h < (8 * h + 7) / 8 * 8 + 8
      omega
    | ⟨1, _⟩ =>
      show win0_3.index ⟨8 * h + 7, ht⟩ 1 * win0_3.size 1 ≤ n.val ∧ n.val < win0_3.index ⟨8 * h + 7, ht⟩ 1 * win0_3.size 1 + win0_3.xsize (grid0.coords ⟨8 * h + 7, ht⟩) 1
      rw [h31, x31]
      have := n.isLt
      omega

/-- Row 8 h of the count array after the run. -/
theorem arr4_row (c : Dev nD) (h : ℕ) (hh : h < 2) (n : Fin 128) :
    ((dats m 0 c).arrAt 4 cfg0.N : S16x128.Idx → EReal) (ix2 (⟨8 * h, by omega⟩ : Fin 16) n)
      = accC m c (8 * h + 7) (by rw [cfgN]; omega) n := by
  have hN : cfg0.N = 16 := cfgN
  have ht : 8 * h + 7 < cfg0.N := by rw [hN]; omega
  have hf : (cfg0.win 4).flush ⟨8 * h + 7, ht⟩ = true := (flush0_4 ⟨8 * h + 7, ht⟩).mpr (by show (8 * h + 7) % 8 = 7; omega)
  refine (dats m 0 c).arrAt_forall_of_flushed 4
    (fun i v => ∀ (n' : Fin 128) (h' : ℕ) (hh' : h' < 2), i = (ix2 (⟨8 * h', by omega⟩ : Fin 16) n' : S16x128.Idx) →
      v = accC m c (8 * h' + 7) (by rw [cfgN]; omega) n')
    (fun t' hf' y n' h' hh' he => ?_) cfg0.N ⟨8 * h + 7, ht⟩ (ix2 (⟨8 * h, by omega⟩ : Fin 16) n) ht hf ?_ n h hh rfl
  · -- what a flushing point writes back
    obtain ⟨-, -, -, -, -, -, -, -, h30, h31⟩ := idx_facts t'
    obtain ⟨-, -, x30, x31⟩ := out_facts t'
    have hm : t'.val % 8 = 7 := (flush0_4 t').mp hf'
    have hlt : t'.val < 16 := lt_of_lt_of_eq t'.isLt hN
    have y0 : (y 0).val < 8 := lt_of_lt_of_eq (y 0).isLt x30
    have e0 : win0_4.index t' 0 * 8 + 1 * (y 0).val = 8 * h' := congrArg (fun i : S16x128.Idx => (i 0).val) he
    have e1 : win0_4.index t' 1 * 128 + 1 * (y 1).val = n'.val := congrArg (fun i : S16x128.Idx => (i 1).val) he
    rw [h30] at e0
    rw [h31] at e1
    have et : t'.val = 8 * h' + 7 := by omega
    have ey0 : (y 0).val = 0 := by omega
    have ey1 : (y 1).val = n'.val := by omega
    rw [cast_eq]
    show (cfg0.win 4).cut (grid0.coords t') ((dats m 0 c).after 4 t') y = _
    rw [after0_4]
    refine Eq.trans ?_ (accC_congr m c et t'.isLt _ n')
    show (outsAt0 m c t'.val t'.isLt).2 _ = (outsAt0 m c t'.val t'.isLt).2 (ix2 (0 : Fin 8) n')
    refine congrArg _ (funext fun a => Fin.ext ?_)
    match a with
    | ⟨0, _⟩ => exact ey0
    | ⟨1, _⟩ => exact ey1
  · -- row 8 h lies in the tile written back after point 8 h + 7
    obtain ⟨-, -, -, -, -, -, -, -, h30, h31⟩ := idx_facts ⟨8 * h + 7, ht⟩
    obtain ⟨-, -, x30, x31⟩ := out_facts ⟨8 * h + 7, ht⟩
    show (ix2 (⟨8 * h, by omega⟩ : Fin 16) n : S16x128.Idx) ∈ ((View.whole main_v6_1).slice (win0_4.rect ⟨8 * h + 7, ht⟩)).set
    rw [View.set_slice_whole, Rect.mem_set_unit]
    intro a
    match a with
    | ⟨0, _⟩ =>
      show win0_4.index ⟨8 * h + 7, ht⟩ 0 * win0_4.size 0 ≤ 8 * h ∧ 8 * h < win0_4.index ⟨8 * h + 7, ht⟩ 0 * win0_4.size 0 + win0_4.xsize (grid0.coords ⟨8 * h + 7, ht⟩) 0
      rw [h30, x30]
      show (8 * h + 7) / 8 * 8 ≤ 8 * h ∧ 8 * h < (8 * h + 7) / 8 * 8 + 8
      omega
    | ⟨1, _⟩ =>
      show win0_4.index ⟨8 * h + 7, ht⟩ 1 * win0_4.size 1 ≤ n.val ∧ n.val < win0_4.index ⟨8 * h + 7, ht⟩ 1 * win0_4.size 1 + win0_4.xsize (grid0.coords ⟨8 * h + 7, ht⟩) 1
      rw [h31, x31]
      have := n.isLt
      omega

/-- Rows 0 and 8, at the indices the host's slices read. -/
theorem arr3_row0 (c : Dev nD) (n : Fin 128) :
    ((dats m 0 c).arrAt 3 cfg0.N : S16x128.Idx → EReal) (ix2 (0 : Fin 16) n) = accL m c 7 (by rw [cfgN]; omega) n :=
  arr3_row m c 0 (by omega) n
theorem arr3_row8 (c : Dev nD) (n : Fin 128) :
    ((dats m 0 c).arrAt 3 cfg0.N : S16x128.Idx → EReal) (ix2 (8 : Fin 16) n) = accL m c 15 (by rw [cfgN]; omega) n :=
  arr3_row m c 1 (by omega) n
theorem arr4_row0 (c : Dev nD) (n : Fin 128) :
    ((dats m 0 c).arrAt 4 cfg0.N : S16x128.Idx → EReal) (ix2 (0 : Fin 16) n) = accC m c 7 (by rw [cfgN]; omega) n :=
  arr4_row m c 0 (by omega) n
theorem arr4_row8 (c : Dev nD) (n : Fin 128) :
    ((dats m 0 c).arrAt 4 cfg0.N : S16x128.Idx → EReal) (ix2 (8 : Fin 16) n) = accC m c 15 (by rw [cfgN]; omega) n :=
  arr4_row m c 1 (by omega) n

/-- The two halves' loss rows add up to the whole batch's column sums; the count rows to the column counts. -/
theorem loss_total (c : Dev nD) (n : Fin 128) :
    accL m c 7 (by rw [cfgN]; omega) n + accL m c 15 (by rw [cfgN]; omega) n
      = Cert.Hand.colLoss (xs m c) (ys m c) (gs m c) n := by
  have h0 := half_sum (termL m c n) (fun t ht => accL m c t ht n) (fun t h => accL_first m c t h n) (fun t h => accL_next m c t h n) 0 (by omega)
  have h1 := half_sum (termL m c n) (fun t ht => accL m c t ht n) (fun t h => accL_first m c t h n) (fun t h => accL_next m c t h n) 1 (by omega)
  refine (congrArg₂ (· + ·) h0 h1).trans ((halves_sum (termL m c n)).trans ?_)
  rfl

theorem count_total (c : Dev nD) (n : Fin 128) :
    accC m c 7 (by rw [cfgN]; omega) n + accC m c 15 (by rw [cfgN]; omega) n
      = Cert.Hand.colCount (ys m c) n := by
  have h0 := half_sum (termC m c n) (fun t ht => accC m c t ht n) (fun t h => accC_first m c t h n) (fun t h => accC_next m c t h n) 0 (by omega)
  have h1 := half_sum (termC m c n) (fun t ht => accC m c t ht n) (fun t h => accC_first m c t h n) (fun t h => accC_next m c t h n) 1 (by omega)
  refine (congrArg₂ (· + ·) h0 h1).trans ((halves_sum (termC m c n)).trans ?_)
  rfl

end Cert.KernelIdeal.Hand
end
-- ==== Proof.KerTail.lean ====
/-
  The host lines after the region, as one function of the two accumulator arrays and the depths.

  They take row 0 and row 8 of each [16, 128] accumulator array (the two halves' row 0), add them lane by lane into the
  loss sums S[n] and the counts C[n], and return  -( sum over n of (B / (128 (C[n] + eps))) exp(-d[n] / 2) S[n] ) / B
  with B = 131072.
-/
import proofs.«400292_j65549790872061_3_alg».proof.Proof.Gen.KernelIdeal.Frame
import proofs.«400292_j65549790872061_3_alg».proof.Proof.Spec
import Idealize.ShloMosaic.Lib.Pipeline.Value
import Idealize.ShloMosaic.Lib.ValueIdx
import Idealize.ShloMosaic.Lib.StableHlo.Run
import Idealize.ShloMosaic.PureOps.Ideal.Laws

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx

/-- Lane n's weighted loss sum: the class weight times the depth decay times the loss sum. -/
def tailSummand (S C : Vec Ideal S16x128 .f32) (d : Vec Ideal S128 .f32) : Vec Ideal S128 .f32 :=
    (mulf (F := Ideal)
      (mulf (F := Ideal)
        (Host.divf (F := Ideal) (broadcastInDim S128 ![] bcast_S_S128 (constant (F := Ideal) S_ .f32 0x48000000#32))
          (mulf (F := Ideal) (broadcastInDim S128 ![] bcast_S_S128 (constant (F := Ideal) S_ .f32 0x43000000#32))
            (addf (F := Ideal)
              (addf (F := Ideal) (shapeCast S128 (extractStridedSlice S1x128 ![0, 0] C slices_S16x128_S1x128_0_0) shapeCasts_S1x128_S128)
                (shapeCast S128 (extractStridedSlice S1x128 ![8, 0] C slices_S16x128_S1x128_8_0) shapeCasts_S1x128_S128))
              (broadcastInDim S128 ![] bcast_S_S128 (constant (F := Ideal) S_ .f32 0x2EDBE6FF#32)))))
        (Host.exp (F := Ideal) (mulf (F := Ideal) (broadcastInDim S128 ![] bcast_S_S128 (constant (F := Ideal) S_ .f32 0xBF000000#32)) d)))
      (addf (F := Ideal) (shapeCast S128 (extractStridedSlice S1x128 ![0, 0] S slices_S16x128_S1x128_0_0) shapeCasts_S1x128_S128)
        (shapeCast S128 (extractStridedSlice S1x128 ![8, 0] S slices_S16x128_S1x128_8_0) shapeCasts_S1x128_S128)))

/-- The lines after the region as one term of the loss accumulator S, the count accumulator C and the depths d. -/
def tailTerm (S C : Vec Ideal S16x128 .f32) (d : Vec Ideal S128 .f32) : Vec Ideal S_ .f32 :=
  Host.divf (F := Ideal) (Host.negf (F := Ideal) (Host.reduceAdd (F := Ideal) (tailSummand S C d)
    (constant (F := Ideal) S_ .f32 0x00000000#32) reducesTo_S128_S_d0 h_S_))
    (constant (F := Ideal) S_ .f32 0x48000000#32)

set_option maxHeartbeats 1000000 in
/-- From any contents of the buffers, the lines after the region leave the result at that term of the two accumulator
    arrays and the depths. -/
theorem tail_after (W : Valuation τ sig (Elt Ideal)) :
    StableHlo.after (hostOps1 (F := Ideal)) W (Proc.devRef .tc main_v30)
      = tailTerm (W (Proc.devRef .tc main_v6_0)) (W (Proc.devRef .tc main_v6_1)) (W (Proc.devRef .tc main_arg2)) := by
  after_results_simp
  rfl

/-- Row 0 of an accumulator array, sliced out and flattened, lane n. -/
theorem slice_row0 (A : Vec Ideal S16x128 .f32) (n : Fin 128) :
    shapeCast S128 (extractStridedSlice S1x128 ![0, 0] A slices_S16x128_S1x128_0_0) shapeCasts_S1x128_S128 (ix1 n)
      = A (ix2 (0 : Fin 16) n) :=
  (shapeCast_apply _ shapeCasts_S1x128_S128 (ix1 n) (ix2 (0 : Fin 1) n)
    (by rw [Shape.rowMajor_val_two, Shape.rowMajor_val_one]; show 0 * 128 + n.val = n.val; omega)).trans
  (extractStridedSlice_apply ![0, 0] A slices_S16x128_S1x128_0_0 (ix2 (0 : Fin 1) n) (ix2 (0 : Fin 16) n) (fun a => match a with
    | ⟨0, _⟩ => rfl
    | ⟨1, _⟩ => by show n.val = 0 + n.val; omega))

/-- Row 8 likewise. -/
theorem slice_row8 (A : Vec Ideal S16x128 .f32) (n : Fin 128) :
    shapeCast S128 (extractStridedSlice S1x128 ![8, 0] A slices_S16x128_S1x128_8_0) shapeCasts_S1x128_S128 (ix1 n)
      = A (ix2 (8 : Fin 16) n) :=
  (shapeCast_apply _ shapeCasts_S1x128_S128 (ix1 n) (ix2 (0 : Fin 1) n)
    (by rw [Shape.rowMajor_val_two, Shape.rowMajor_val_one]; show 0 * 128 + n.val = n.val; omega)).trans
  (extractStridedSlice_apply ![8, 0] A slices_S16x128_S1x128_8_0 (ix2 (0 : Fin 1) n) (ix2 (8 : Fin 16) n) (fun a => match a with
    | ⟨0, _⟩ => rfl
    | ⟨1, _⟩ => by show n.val = 0 + n.val; omega))

open Cert.Hand in
/-- Lane n of the weighted loss sums. -/
theorem tailSummand_apply (S C : Vec Ideal S16x128 .f32) (d : Vec Ideal S128 .f32) (n : Fin 128) :
    tailSummand S C d (ix1 n)
      = (Ideal.div cB (c128 * ((C (ix2 (0 : Fin 16) n) + C (ix2 (8 : Fin 16) n)) + eps)) * Ideal.exp (mh * d (ix1 n)))
          * (S (ix2 (0 : Fin 16) n) + S (ix2 (8 : Fin 16) n)) := by
  rw [← slice_row0 S n, ← slice_row8 S n, ← slice_row0 C n, ← slice_row8 C n]
  rfl

/-- Lanes as a plain range. -/
def laneEquiv : Fin 128 ≃ S128.Idx where
  toFun n := ix1 n
  invFun j := j 0
  left_inv _ := rfl
  right_inv j := (eq_ix1 j).symm

open Cert.Hand in
/-- The result of the lines after the region. -/
theorem tailTerm_apply (S C : Vec Ideal S16x128 .f32) (d : Vec Ideal S128 .f32) (i : S_.Idx) :
    tailTerm S C d i
      = Ideal.div (-(z + ∑ n : Fin 128,
          (Ideal.div cB (c128 * ((C (ix2 (0 : Fin 16) n) + C (ix2 (8 : Fin 16) n)) + eps)) * Ideal.exp (mh * d (ix1 n)))
            * (S (ix2 (0 : Fin 16) n) + S (ix2 (8 : Fin 16) n)))) cB := by
  unfold tailTerm
  show Ideal.div (-(Ideal.hostReduceAdd reducesTo_S128_S_d0 (tailSummand S C d) (Ideal.ofBits .f32 0x00000000#32) i)) (Ideal.ofBits .f32 0x48000000#32) = _
  rw [Ideal.hostReduceAdd_total reducesTo_S128_S_d0 (fun b => b.elim0) (tailSummand S C d) _ i,
    ← Equiv.sum_comp laneEquiv]
  refine congrArg (fun s => Ideal.div (-(_ + s)) _) (Finset.sum_congr rfl fun n _ => ?_)
  exact tailSummand_apply S C d n

end Cert.KernelIdeal.Hand
end
-- ==== Proof.KerValue.lean ====
/-
  The fused kernel's program computes the loss in its first spelling: the result buffer ends at
  -( sum over nodes n of weight(n) decay(n) colLoss(n) ) / B  of the argument arrays, and the arguments end unchanged.
-/
import proofs.«400292_j65549790872061_3_alg».proof.Proof.KerArrays
import proofs.«400292_j65549790872061_3_alg».proof.Proof.KerTail

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx

variable (m : (ℓ : Loc nD τ sig) → Buf (Elt Ideal) ℓ) (ρ : Dev nD → PrngReg)

/-- The lines after the region, over the arrays the region leaves. -/
theorem tail_value (c : Dev nD) :
    Pipeline.afterTail₀ cfgs (dats m) 0 (V0 m) [hostOps1] c main_v30
      = tailTerm ((dats m 0 c).arrAt 3 cfg0.N) ((dats m 0 c).arrAt 4 cfg0.N) (m ((c : Thread nD τ).loc main_arg2)) := by
  unfold Pipeline.afterTail₀
  refine (tail_after _).trans ?_
  have e3 : Pipeline.withArrays (cfgs 0).spec c (V0 m c) (fun w => (dats m 0 c).arrAt w (cfgs 0).N) (Proc.devRef .tc main_v6_0)
      = (dats m 0 c).arrAt 3 cfg0.N := Pipeline.withArrays_arr spec0 launch0.win.arr_inj c _ _ 3
  have e4 : Pipeline.withArrays (cfgs 0).spec c (V0 m c) (fun w => (dats m 0 c).arrAt w (cfgs 0).N) (Proc.devRef .tc main_v6_1)
      = (dats m 0 c).arrAt 4 cfg0.N := Pipeline.withArrays_arr spec0 launch0.win.arr_inj c _ _ 4
  have e2 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans
      (V_main_arg2 m c)
  rw [e3, e4, e2]

/-- The result is the loss in its first spelling. -/
theorem ker_value (c : Dev nD) :
    Pipeline.afterTail₀ cfgs (dats m) 0 (V0 m) [hostOps1] c main_v30
      = fun _ => Cert.Hand.kerRes (m ((c : Thread nD τ).loc main_arg0)) (m ((c : Thread nD τ).loc main_arg1))
          (m ((c : Thread nD τ).loc main_arg2)) (m ((c : Thread nD τ).loc main_arg3)) := by
  rw [tail_value]
  funext i
  rw [tailTerm_apply]
  unfold Cert.Hand.kerRes Cert.Hand.weight Cert.Hand.decay
  refine congrArg (fun s => Ideal.div (-(Cert.Hand.z + s)) Cert.Hand.cB) (Finset.sum_congr rfl fun n _ => ?_)
  rw [arr3_row0, arr3_row8, arr4_row0, arr4_row8, loss_total, count_total]

/-- The run: the result at the first spelling of the loss, the arguments unchanged. -/
theorem run_value : θ_run defs (onTc (τ := τ) (main (F := Ideal))) ⟨m, fun _ => 0, ρ⟩ fun r => ∀ c : Dev nD,
      r.2.mem ((c.tc : Thread nD τ).loc main_v30)
        = (fun _ => Cert.Hand.kerRes (m ((c.tc : Thread nD τ).loc main_arg0)) (m ((c.tc : Thread nD τ).loc main_arg1))
            (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v30 (Pipeline.mem_restRefs_of main_v30 (by decide) (by decide))).trans (ker_value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Hand
end
-- ==== Proof.RefValue.lean ====
/-
  The reference program read one operation at a time, at explicit coordinates: each intermediate array of the host
  program, at row b, node n, group k, is the corresponding term of the specification's second spelling (the one-hot
  matrix of the group ids, the group sums, the denominators through the groups, the log of the quotient, the depth
  decay, the class weight), then the sum of each row's weighted entries, the sum of the row sums, the quotient by the
  number of rows, and the sign.
-/
import proofs.«400292_j65549790872061_3_alg».proof.Proof.Gen.ReferenceIdeal.Read
import proofs.«400292_j65549790872061_3_alg».proof.Proof.Spec

noncomputable section

open scoped BigOperators

namespace Cert.Hand

open Idealize.ShloMosaic Idealize.ShloMosaic.ValueIdx
open Cert.ReferenceIdeal Cert.ReferenceIdeal.Read

variable (x y : SBN.Idx → EReal) (d : SN.Idx → EReal) (g : SN.Idx → BitVec 32)

/-- The one-hot matrix: entry (n, k) is 1 exactly when node n's group id is k. -/
theorem ref_hot (n : Fin 128) (k : Fin 32) : val_main_v7 (F := Ideal) g (ix2 n k) = hot g n k := by
  rw [val_main_v7_apply, val_main_call0_v4_apply, val_main_call0_v2_apply, val_main_call0_v0_apply,
    val_main_call0_v3_apply, val_main_call0_v1_apply]
  have e1 : idx_main_call0_v0 (idx_main_call0_v2 (ix2 n k)) = ix1 n :=
    funext fun a => Fin.ext (by match a with | ⟨0, _⟩ => rfl)
  rw [e1]
  rfl

/-- The exponentials. -/
theorem ref_exp (b : Fin 131072) (j : Fin 128) : val_main_v8 (F := Ideal) x (ix2 b j) = Ideal.exp (x (ix2 b j)) := rfl

/-- Row b's group sums: the first contraction, over the nodes. -/
theorem ref_groupSum (b : Fin 131072) (k : Fin 32) : val_main_v9 (F := Ideal) x g (ix2 b k) = groupSum x g b k := by
  rw [val_main_v9_apply]
  unfold groupSum
  refine Finset.sum_congr rfl fun j _ => ?_
  have el : lidx_main_v9 (ix2 b k) j = ix2 b j :=
    funext fun a => Fin.ext (by match a with | ⟨0, _⟩ => rfl | ⟨1, _⟩ => rfl)
  have er : ridx_main_v9 (ix2 b k) j = ix2 j k :=
    funext fun a => Fin.ext (by match a with | ⟨0, _⟩ => rfl | ⟨1, _⟩ => rfl)
  rw [el, er, ref_hot, ref_exp]

/-- The transposed one-hot matrix. -/
theorem ref_hotT (k : Fin 32) (n : Fin 128) : val_main_v10 (F := Ideal) g (ix2 k n) = hot g n k := by
  rw [val_main_v10_apply]
  have e : idx_main_v10 (ix2 k n) = ix2 n k :=
    funext fun a => Fin.ext (by match a with | ⟨0, _⟩ => rfl | ⟨1, _⟩ => rfl)
  rw [e, ref_hot]

/-- The second contraction, over the groups: the group sum of node n's own group. -/
theorem ref_spread (b : Fin 131072) (n : Fin 128) :
    val_main_v11 (F := Ideal) x g (ix2 b n) = ∑ k : Fin 32, groupSum x g b k * hot g n k := by
  rw [val_main_v11_apply]
  refine Finset.sum_congr rfl fun k _ => ?_
  have el : lidx_main_v11 (ix2 b n) k = ix2 b k :=
    funext fun a => Fin.ext (by match a with | ⟨0, _⟩ => rfl | ⟨1, _⟩ => rfl)
  have er : ridx_main_v11 (ix2 b n) k = ix2 k n :=
    funext fun a => Fin.ext (by match a with | ⟨0, _⟩ => rfl | ⟨1, _⟩ => rfl)
  rw [el, er, ref_groupSum, ref_hotT]

/-- The softmax denominator. -/
theorem ref_den (b : Fin 131072) (n : Fin 128) : val_main_v13 (F := Ideal) x g (ix2 b n) = denR x g b n := by
  rw [val_main_v13_apply, ref_spread, val_main_v12_apply, val_main_cst_3_apply]
  rfl

/-- The log-probability, as the log of the quotient. -/
theorem ref_lp (b : Fin 131072) (n : Fin 128) : val_main_v15 (F := Ideal) x g (ix2 b n) = lpR x g b n := by
  rw [val_main_v15_apply, val_main_v14_apply, ref_den, ref_exp]
  rfl

/-- The depth decay of node n. -/
theorem ref_decay (n : Fin 128) : val_main_v18 (F := Ideal) d (ix1 n) = decay d n := by
  rw [val_main_v18_apply, val_main_v17_apply, val_main_v16_apply, val_main_cst_4_apply]
  rfl

/-- The depth decay, broadcast over the rows. -/
theorem ref_decayB (b : Fin 131072) (n : Fin 128) : val_main_v20 (F := Ideal) d (ix2 b n) = decay d n := by
  rw [val_main_v20_apply, val_main_v19_apply]
  have e : idx_main_v19 (idx_main_v20 (ix2 b n)) = ix1 n :=
    funext fun a => Fin.ext (by match a with | ⟨0, _⟩ => rfl)
  rw [e, ref_decay]

/-- Column n's class weight, its count a sum started from zero. -/
theorem ref_weight (n : Fin 128) : val_main_v6 (F := Ideal) y (ix1 n) = weightR y n := by
  rw [val_main_v6_apply, val_main_v5_apply, val_main_cst_2_apply, val_main_v4_apply, val_main_v3_apply,
    val_main_cst_1_apply, val_main_v2_apply, val_main_v0_apply, val_main_cst_apply, val_main_v1_apply,
    val_main_cst_0_apply]
  have e : ∀ k : Fin 131072, idx_main_v0 (ix1 n) k = ix2 k n := fun k =>
    funext fun a => Fin.ext (by match a with | ⟨0, _⟩ => rfl | ⟨1, _⟩ => rfl)
  simp only [e]
  rfl

/-- The class weight, broadcast over the rows. -/
theorem ref_weightB (b : Fin 131072) (n : Fin 128) : val_main_v23 (F := Ideal) y (ix2 b n) = weightR y n := by
  rw [val_main_v23_apply, val_main_v22_apply]
  have e : idx_main_v22 (idx_main_v23 (ix2 b n)) = ix1 n :=
    funext fun a => Fin.ext (by match a with | ⟨0, _⟩ => rfl)
  rw [e, ref_weight]

/-- The weighted entry of row b, node n. -/
theorem ref_entry (b : Fin 131072) (n : Fin 128) :
    val_main_v25 (F := Ideal) x y d g (ix2 b n) = (weightR y n * (lpR x g b n * decay d n)) * y (ix2 b n) := by
  rw [val_main_v25_apply, val_main_v24_apply, val_main_v21_apply, ref_weightB, ref_lp, ref_decayB]
  rfl

/-- A rank-1 index set is its coordinate range. -/
def idxEquiv1 {n : Nat} : (⟨1, ![n]⟩ : Shape).Idx ≃ Fin n where
  toFun j := j 0
  invFun a := ix1 a
  left_inv j := (eq_ix1 j).symm
  right_inv _ := rfl

/-- Row b's sum of weighted entries, started from zero. -/
theorem ref_rowSum (b : Fin 131072) :
    val_main_v26 (F := Ideal) x y d g (ix1 b)
      = z + ∑ n : Fin 128, (weightR y n * (lpR x g b n * decay d n)) * y (ix2 b n) := by
  rw [val_main_v26_apply, val_main_cst_5_apply]
  refine congrArg₂ (· + ·) rfl (Finset.sum_congr rfl fun n _ => ?_)
  have e : idx_main_v26 (ix1 b) n = ix2 b n :=
    funext fun a => Fin.ext (by match a with | ⟨0, _⟩ => rfl | ⟨1, _⟩ => rfl)
  rw [e, ref_entry]

/-- The reference program's result is the loss in its second spelling. -/
theorem ref_value (x y : SBN.Idx → EReal) (d : SN.Idx → EReal) (g : SN.Idx → BitVec 32) :
    Cert.ReferenceIdeal.Read.val_main_v29 (F := Ideal) x y d g = fun _ => refRes x y d g := by
  funext i
  rw [val_main_v29_apply, val_main_v28_apply, val_main_v27_apply, val_main_cst_6_apply, val_main_cst_7_apply]
  have hs : ∑ j : S131072.Idx, val_main_v26 (F := Ideal) x y d g j
      = ∑ b : Fin 131072, (z + ∑ n : Fin 128, (weightR y n * (lpR x g b n * decay d n)) * y (ix2 b n)) := by
    rw [← Equiv.sum_comp (idxEquiv1 (n := 131072)).symm]
    exact Finset.sum_congr rfl fun b _ => ref_rowSum x y d g b
  rw [hs]
  rfl

end Cert.Hand

end
-- ==== Proof.PreDecode.lean ====
/-
  What the statement's precondition says of the four argument arrays.  The printed predicate is the conjunction of five
  tests, each an "all" over an array: every logit, every target and every depth has absolute value below +infinity
  (so each is a real number: neither infinity nor the junk value passes, since the absolute value of either is +infinity);
  every group id lies in [0, 32), compared as signed words (so it is the word of some k below 32); and for every node
  the column count of the targets, summed from zero, plus the small constant, is not zero.
-/
import proofs.«400292_j65549790872061_3_alg».proof.Proof.Gen.Pre_finite_inputs
import proofs.«400292_j65549790872061_3_alg».proof.Proof.Spec
import Idealize.ShloMosaic.Lib.ReduceAll
import Idealize.ShloMosaic.Lib.StableHlo.Predicate
import Idealize.ShloMosaic.PureOps.Ideal.Laws

noncomputable section

open scoped BigOperators

namespace Cert.Hand

open Idealize.ShloMosaic Idealize.ShloMosaic.ValueIdx
open Cert.Pre_finite_inputs

/-- The scalar shape has one index. -/
instance subsingleton_scalar_idx : Subsingleton Cert.Pre_finite_inputs.S_.Idx :=
  ⟨fun a b => funext fun d => d.elim0⟩

/-- The word 0x7F800000 is +infinity. -/
theorem top_word : Ideal.ofBits .f32 0x7F800000#32 = ⊤ := by simp [Ideal.ofBits, Ideal.ieee]

/-- An extended real whose absolute value max v (-v) is below +infinity is a real: the absolute value of either
    infinity is +infinity. -/
theorem real_of_abs_lt (v : EReal)
    (h : FloatOps.cmpf (F := Ideal) .olt (FloatOps.hostAbsf (F := Ideal) (φ := .f32) v)
      (FloatOps.ofBits (F := Ideal) .f32 0x7F800000#32) = 1#1) :
    ∃ r : ℝ, v = (r : EReal) := by
  have h' : max v (-v) < Ideal.ofBits .f32 0x7F800000#32 :=
    of_decide_eq_true ((StableHlo.Predicate.ofBool_eq_one_iff _).1 h)
  rw [top_word] at h'
  induction v using EReal.rec with
  | bot => simp at h'
  | coe r => exact ⟨r, rfl⟩
  | top => simp at h'

/-- An array whose every entry is a real is the coercion of a real array. -/
theorem all_real {s : Shape} (v : s.Idx → EReal) (h : ∀ i, ∃ r : ℝ, v i = (r : EReal)) :
    ∃ V : s.Idx → ℝ, v = fun i => ((V i : ℝ) : EReal) :=
  ⟨fun i => Classical.choose (h i), funext fun i => Classical.choose_spec (h i)⟩

/-- A 32-bit word that, read signed, is at least 0 and below 32 is the word of some k below 32. -/
theorem word_in_range (w : BitVec 32) (h0 : (0#32 : BitVec 32).toInt ≤ w.toInt)
    (h1 : w.toInt < (32#32 : BitVec 32).toInt) : ∃ k : Fin 32, w = BitVec.ofNat 32 k.val := by
  have e0 : (0#32 : BitVec 32).toInt = 0 := by decide
  have e1 : (32#32 : BitVec 32).toInt = 32 := by decide
  rw [e0] at h0
  rw [e1] at h1
  have hw : w.toNat < 32 := by
    have hc := BitVec.toInt_eq_toNat_cond w
    have := w.isLt
    split_ifs at hc with hlt <;> omega
  refine ⟨⟨w.toNat, hw⟩, BitVec.eq_of_toNat_eq ?_⟩
  rw [BitVec.toNat_ofNat]
  exact (Nat.mod_eq_of_lt (by omega)).symm

/-- The comparison "not equal" holds exactly when the two extended reals differ. -/
theorem ne_of_une (a b : EReal) (h : FloatOps.cmpf (F := Ideal) (φ := .f32) .une a b = 1#1) : a ≠ b :=
  of_decide_eq_true ((StableHlo.Predicate.ofBool_eq_one_iff _).1 h)

/-- The targets' column sum started from the zero word, read at node n: zero plus the column count. -/
theorem count_read (y : SBN.Idx → EReal) (n : Fin 128) :
    Host.reduceAdd (F := Ideal) y (constant (F := Ideal) Cert.Pre_finite_inputs.S_ .f32 0x00000000#32)
        Facts.reducesTo_S131072x128_S128_d0 Facts.h_S_ (ix1 n)
      = z + colCount y n := by
  simp only [Host.reduceAdd, Ideal.hostReduceAdd_def]
  rw [Ideal.hostReduceAdd_single Facts.reducesTo_S131072x128_S128_d0 (by decide)]
  refine congrArg₂ (· + ·) rfl (Finset.sum_congr rfl fun k _ => ?_)
  exact congrArg y (funext fun a => Fin.ext (by match a with | ⟨0, _⟩ => rfl | ⟨1, _⟩ => rfl))

/-- The precondition, decoded: the three float arrays are real arrays, every group id is the word of a group below 32,
    and no column's count plus the small constant vanishes. -/
theorem pre_decode (x y : SBN.Idx → EReal) (d : SN.Idx → EReal) (g : SN.Idx → BitVec 32)
    (h : Cert.Pre_finite_inputs.fn (F := Ideal) x y d g = fun _ => 1#1) :
    (∃ X : SBN.Idx → ℝ, x = fun i => ((X i : ℝ) : EReal)) ∧ (∃ Y : SBN.Idx → ℝ, y = fun i => ((Y i : ℝ) : EReal))
    ∧ (∃ D : SN.Idx → ℝ, d = fun i => ((D i : ℝ) : EReal))
    ∧ (∀ n : Fin 128, ∃ k : Fin 32, g (ix1 n) = BitVec.ofNat 32 k.val)
    ∧ (∀ n : Fin 128, (z + colCount y n) + eps ≠ z) := by
  have h0 := congrFun h ValueIdx.ix0
  dsimp only [Cert.Pre_finite_inputs.fn, Cert.Pre_finite_inputs.fn_part1] at h0
  -- the five tests, one conjunct each
  obtain ⟨h20, h26⟩ := IntOp.andi_eq_one.1 h0
  obtain ⟨h13, h19⟩ := IntOp.andi_eq_one.1 h20
  obtain ⟨h8, h12⟩ := IntOp.andi_eq_one.1 h13
  obtain ⟨h3, h7⟩ := IntOp.andi_eq_one.1 h8
  -- each test holds at every index
  have a3 := Host.reduce_andi_all _ _ _ _ _ h3
  have a7 := Host.reduce_andi_all _ _ _ _ _ h7
  have a12 := Host.reduce_andi_all _ _ _ _ _ h12
  have a19 := Host.reduce_andi_all _ _ _ _ _ h19
  have a26 := Host.reduce_andi_all _ _ _ _ _ h26
  refine ⟨all_real x fun i => real_of_abs_lt (x i) (a3 i), all_real y fun i => real_of_abs_lt (y i) (a7 i),
    all_real d fun i => real_of_abs_lt (d i) (a12 i), fun n => ?_, fun n => ?_⟩
  · obtain ⟨hge, hlt⟩ := IntOp.andi_eq_one.1 (a19 (ix1 n))
    have hge' : IntOp.cmpi .sge (g (ix1 n)) 0#32 = 1#1 := hge
    have hlt' : IntOp.cmpi .slt (g (ix1 n)) 32#32 = 1#1 := hlt
    exact word_in_range _ (IntOp.cmpi_sge.1 hge') (IntOp.cmpi_slt.1 hlt')
  · have c := a26 (ix1 n)
    change FloatOps.cmpf (F := Ideal) (φ := .f32) .une
      (FloatOps.addf (F := Ideal) (φ := .f32)
        (Host.reduceAdd (F := Ideal) y (constant (F := Ideal) Cert.Pre_finite_inputs.S_ .f32 0x00000000#32)
          Facts.reducesTo_S131072x128_S128_d0 Facts.h_S_ (ix1 n))
        (FloatOps.ofBits (F := Ideal) .f32 0x2EDBE6FF#32))
      (FloatOps.ofBits (F := Ideal) .f32 0x00000000#32) = 1#1 at c
    have h1 := ne_of_une _ _ c
    rw [count_read] at h1
    simp only [Ideal.addf_def, Ideal.ofBits_def] at h1
    exact h1

end Cert.Hand

end
-- ==== Proof.BridgeReal.lean ====
/-
  The loss of Spec.lean over the real numbers.  Every quantity of the two spellings is written again with real
  arithmetic (the group tests as real numbers in {0, 1}, a positive real e in place of the small constant), and the
  two real formulas are shown equal:

  * summing over the 32 groups the product of two one-hot entries gives the equality test of the two group ids, as
    soon as one of the ids is a group below 32; hence the two denominators agree;
  * log (exp x / d) = x - log d for d > 0;
  * the weight does not depend on the row, so it and the decay factor come out of the sum over rows.
-/
import proofs.«400292_j65549790872061_3_alg».proof.Proof.Spec
import Mathlib.Analysis.SpecialFunctions.Log.Basic
import Mathlib.Algebra.BigOperators.Ring.Finset
import Mathlib.Algebra.BigOperators.Fin
import Mathlib.Tactic.Ring
import Mathlib.Tactic.Positivity

noncomputable section

open scoped BigOperators

namespace Cert.Hand.R

open Idealize.ShloMosaic Idealize.ShloMosaic.ValueIdx

variable (e : ℝ) (X Y : SBN.Idx → ℝ) (D : SN.Idx → ℝ) (g : SN.Idx → BitVec 32)

/-- 1 when nodes j and n carry the same group id, else 0. -/
def same (j n : Fin 128) : ℝ := if g (ix1 j) = g (ix1 n) then 1 else 0

/-- 1 when node n's group id is k, else 0. -/
def hot (n : Fin 128) (k : Fin 32) : ℝ := if g (ix1 n) = BitVec.ofNat 32 k.val then 1 else 0

def colCount (n : Fin 128) : ℝ := ∑ b : Fin 131072, Y (ix2 b n)

def decay (n : Fin 128) : ℝ := Real.exp (-(1 / 2) * D (ix1 n))

def denK (b : Fin 131072) (n : Fin 128) : ℝ := (∑ j : Fin 128, Real.exp (X (ix2 b j)) * same g j n) + e

def lpK (b : Fin 131072) (n : Fin 128) : ℝ := X (ix2 b n) - Real.log (denK e X g b n)

def colLoss (n : Fin 128) : ℝ := ∑ b : Fin 131072, lpK e X g b n * Y (ix2 b n)

def weight (n : Fin 128) : ℝ := 131072 * (1 / (128 * (colCount Y n + e)))

def kerRes : ℝ := (-(0 + ∑ n : Fin 128, (weight e Y n * decay D n) * colLoss e X Y g n)) * (1 / 131072)

def groupSum (b : Fin 131072) (k : Fin 32) : ℝ := ∑ j : Fin 128, Real.exp (X (ix2 b j)) * hot g j k

def denR (b : Fin 131072) (n : Fin 128) : ℝ := (∑ k : Fin 32, groupSum X g b k * hot g n k) + e

def lpR (b : Fin 131072) (n : Fin 128) : ℝ := Real.log (Real.exp (X (ix2 b n)) * (1 / denR e X g b n))

def weightR (n : Fin 128) : ℝ := 131072 * (1 / (128 * ((0 + colCount Y n) + e)))

def refRes : ℝ :=
  -((0 + ∑ b : Fin 131072, (0 + ∑ n : Fin 128, (weightR e Y n * (lpR e X g b n * decay D n)) * Y (ix2 b n)))
      * (1 / 131072))

/-! ## The group tests -/

theorem same_nonneg (j n : Fin 128) : 0 ≤ same g j n := by
  unfold same; split_ifs <;> norm_num

theorem hot_nonneg (n : Fin 128) (k : Fin 32) : 0 ≤ hot g n k := by
  unfold hot; split_ifs <;> norm_num

/-- Group numbers below 32 are told apart by their 32-bit words. -/
theorem ofNat_inj (a b : Fin 32) : BitVec.ofNat 32 a.val = BitVec.ofNat 32 b.val ↔ a = b := by
  constructor
  · intro h
    have h' := congrArg BitVec.toNat h
    simp only [BitVec.toNat_ofNat] at h'
    have ha := a.isLt
    have hb := b.isLt
    apply Fin.ext
    omega
  · intro h; rw [h]

/-- Over the groups, the product of node j's and node n's one-hot rows sums to their equality test, when node n's
    id is a group below 32. -/
theorem sum_hot_mul_hot (hg : ∀ n : Fin 128, ∃ k : Fin 32, g (ix1 n) = BitVec.ofNat 32 k.val) (j n : Fin 128) :
    ∑ k : Fin 32, hot g j k * hot g n k = same g j n := by
  obtain ⟨k0, hk0⟩ := hg n
  have h1 : ∀ k : Fin 32, hot g n k = if k = k0 then 1 else 0 := by
    intro k
    unfold hot
    rw [hk0]
    by_cases hk : k = k0
    · rw [if_pos hk, if_pos (by rw [hk])]
    · rw [if_neg hk, if_neg (fun h => hk ((ofNat_inj k0 k).1 h).symm)]
  have h2 : ∀ k : Fin 32, hot g j k * hot g n k = if k = k0 then hot g j k0 else 0 := by
    intro k
    rw [h1 k]
    by_cases hk : k = k0
    · rw [if_pos hk, if_pos hk, mul_one, hk]
    · rw [if_neg hk, if_neg hk, mul_zero]
  rw [Finset.sum_congr rfl (fun k _ => h2 k), Finset.sum_ite_eq' Finset.univ k0, if_pos (Finset.mem_univ k0)]
  unfold hot same
  rw [hk0]

/-! ## The denominators -/

theorem denK_pos (he : 0 < e) (b : Fin 131072) (n : Fin 128) : 0 < denK e X g b n := by
  unfold denK
  have h : 0 ≤ ∑ j : Fin 128, Real.exp (X (ix2 b j)) * same g j n :=
    Finset.sum_nonneg fun j _ => mul_nonneg (Real.exp_pos _).le (same_nonneg g j n)
  linarith

theorem denR_eq_denK (hg : ∀ n : Fin 128, ∃ k : Fin 32, g (ix1 n) = BitVec.ofNat 32 k.val)
    (b : Fin 131072) (n : Fin 128) : denR e X g b n = denK e X g b n := by
  unfold denR denK groupSum
  congr 1
  calc ∑ k : Fin 32, (∑ j : Fin 128, Real.exp (X (ix2 b j)) * hot g j k) * hot g n k
      = ∑ k : Fin 32, ∑ j : Fin 128, Real.exp (X (ix2 b j)) * (hot g j k * hot g n k) := by
        refine Finset.sum_congr rfl fun k _ => ?_
        rw [Finset.sum_mul]
        exact Finset.sum_congr rfl fun j _ => mul_assoc _ _ _
    _ = ∑ j : Fin 128, ∑ k : Fin 32, Real.exp (X (ix2 b j)) * (hot g j k * hot g n k) := Finset.sum_comm
    _ = ∑ j : Fin 128, Real.exp (X (ix2 b j)) * same g j n := by
        refine Finset.sum_congr rfl fun j _ => ?_
        rw [← Finset.mul_sum, sum_hot_mul_hot g hg j n]

/-! ## The log-probabilities -/

theorem lpR_eq_lpK (he : 0 < e) (hg : ∀ n : Fin 128, ∃ k : Fin 32, g (ix1 n) = BitVec.ofNat 32 k.val)
    (b : Fin 131072) (n : Fin 128) : lpR e X g b n = lpK e X g b n := by
  unfold lpR lpK
  rw [denR_eq_denK e X g hg b n, mul_one_div,
    Real.log_div (Real.exp_ne_zero _) (ne_of_gt (denK_pos e X g he b n)), Real.log_exp]

theorem weightR_eq_weight (n : Fin 128) : weightR e Y n = weight e Y n := by
  unfold weightR weight; rw [zero_add]

/-! ## The two losses -/

theorem kerRes_eq_refRes (he : 0 < e) (hg : ∀ n : Fin 128, ∃ k : Fin 32, g (ix1 n) = BitVec.ofNat 32 k.val) :
    kerRes e X Y D g = refRes e X Y D g := by
  have hK : kerRes e X Y D g
      = (-(∑ n : Fin 128, (weight e Y n * decay D n) * colLoss e X Y g n)) * (1 / 131072) := by
    unfold kerRes; rw [zero_add]
  have h0 : ∀ b : Fin 131072,
      (0 + ∑ n : Fin 128, (weightR e Y n * (lpR e X g b n * decay D n)) * Y (ix2 b n))
        = ∑ n : Fin 128, (weightR e Y n * (lpR e X g b n * decay D n)) * Y (ix2 b n) := fun b => zero_add _
  have hR : refRes e X Y D g
      = (-(∑ b : Fin 131072, ∑ n : Fin 128, (weightR e Y n * (lpR e X g b n * decay D n)) * Y (ix2 b n)))
          * (1 / 131072) := by
    unfold refRes
    rw [zero_add, neg_mul, Finset.sum_congr rfl (fun b _ => h0 b)]
  rw [hK, hR]
  suffices hS : ∑ n : Fin 128, (weight e Y n * decay D n) * colLoss e X Y g n
      = ∑ b : Fin 131072, ∑ n : Fin 128, (weightR e Y n * (lpR e X g b n * decay D n)) * Y (ix2 b n) by
    rw [hS]
  calc ∑ n : Fin 128, (weight e Y n * decay D n) * colLoss e X Y g n
      = ∑ n : Fin 128, ∑ b : Fin 131072, (weightR e Y n * (lpR e X g b n * decay D n)) * Y (ix2 b n) := by
        refine Finset.sum_congr rfl fun n _ => ?_
        unfold colLoss
        rw [Finset.mul_sum]
        refine Finset.sum_congr rfl fun b _ => ?_
        rw [weightR_eq_weight, lpR_eq_lpK e X g he hg]
        ring
    _ = ∑ b : Fin 131072, ∑ n : Fin 128, (weightR e Y n * (lpR e X g b n * decay D n)) * Y (ix2 b n) :=
        Finset.sum_comm

end Cert.Hand.R

end
-- ==== Proof.BridgeCoe.lean ====
/-
  The two spellings of Spec.lean at real inputs are the coercions of the real formulas of BridgeReal.lean.

  The five literals are real numbers (zero, 128, 131072, minus one half, and a positive real e); the group tests are
  real numbers in {0, 1}; exp of a real is the real exponential; a finite sum of coercions is the coercion of the sum;
  each denominator is positive, so its logarithm and the quotient by it are the real ones; and the weight's divisor
  128 * (count + e) is a nonzero real as soon as count + e is not zero.
-/
import proofs.«400292_j65549790872061_3_alg».proof.Proof.BridgeReal
import Mathlib.Data.EReal.Basic
import Mathlib.Data.EReal.Operations
import Mathlib.Tactic.NormNum

noncomputable section

open scoped BigOperators

namespace Cert.Hand

open Idealize.ShloMosaic Idealize.ShloMosaic.ValueIdx

/-! ## The literals -/

theorem z_eq : z = 0 := by
  unfold z; simp [Ideal.ofBits, Ideal.ieee]

theorem c128_eq : c128 = ((128 : ℝ) : EReal) := by
  unfold c128; simp [Ideal.ofBits, Ideal.ieee, -EReal.coe_mul]; norm_num

theorem cB_eq : cB = ((131072 : ℝ) : EReal) := by
  unfold cB; simp [Ideal.ofBits, Ideal.ieee, -EReal.coe_mul]; norm_num

theorem mh_eq : mh = ((-(1 / 2) : ℝ) : EReal) := by
  unfold mh; simp [Ideal.ofBits, Ideal.ieee, -EReal.coe_mul]; norm_num

/-- The small constant is a positive real number. -/
theorem eps_real : ∃ e : ℝ, 0 < e ∧ eps = ((e : ℝ) : EReal) := by
  unfold eps; simp [Ideal.ofBits, Ideal.ieee, -EReal.coe_mul]

/-- The small constant as a real number. -/
def epsR : ℝ := EReal.toReal eps

theorem eps_eq : eps = ((epsR : ℝ) : EReal) := by
  obtain ⟨e, _, he⟩ := eps_real
  unfold epsR; rw [he, EReal.toReal_coe]

theorem epsR_pos : 0 < epsR := by
  obtain ⟨e, hpos, he⟩ := eps_real
  unfold epsR; rw [he, EReal.toReal_coe]; exact hpos

/-! ## Sums of coercions -/

theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-! ## The group tests -/

theorem bit_toNat_cast (a b : BitVec 32) : (((IntOp.cmpi .eq a b).toNat : ℝ)) = if a = b then 1 else 0 := by
  by_cases h : a = b
  · simp [IntOp.cmpi, h]
  · simp [IntOp.cmpi, h]

variable (X Y : SBN.Idx → ℝ) (D : SN.Idx → ℝ) (g : SN.Idx → BitVec 32)

theorem same_coe (j n : Fin 128) : same g j n = ((R.same g j n : ℝ) : EReal) := by
  unfold same R.same; rw [bit_toNat_cast]

theorem hot_coe (n : Fin 128) (k : Fin 32) : hot g n k = ((R.hot g n k : ℝ) : EReal) := by
  unfold hot R.hot; rw [bit_toNat_cast]

/-! ## Shared quantities -/

theorem colCount_coe (n : Fin 128) :
    colCount (fun i => ((Y i : ℝ) : EReal)) n = ((R.colCount Y n : ℝ) : EReal) := by
  unfold colCount R.colCount; exact coe_sum _ _

theorem decay_coe (n : Fin 128) :
    decay (fun i => ((D i : ℝ) : EReal)) n = ((R.decay D n : ℝ) : EReal) := by
  unfold decay R.decay
  rw [mh_eq, ← EReal.coe_mul, Ideal.exp_coe]

/-! ## First spelling -/

theorem denK_coe (b : Fin 131072) (n : Fin 128) :
    denK (fun i => ((X i : ℝ) : EReal)) g b n = ((R.denK epsR X g b n : ℝ) : EReal) := by
  unfold denK R.denK
  have h : ∀ j : Fin 128, Ideal.exp ((X (ix2 b j) : ℝ) : EReal) * same g j n
      = ((Real.exp (X (ix2 b j)) * R.same g j n : ℝ) : EReal) := by
    intro j; rw [Ideal.exp_coe, same_coe, EReal.coe_mul]
  rw [Finset.sum_congr rfl (fun j _ => h j), coe_sum, eps_eq, EReal.coe_add]

theorem lpK_coe (b : Fin 131072) (n : Fin 128) :
    lpK (fun i => ((X i : ℝ) : EReal)) g b n = ((R.lpK epsR X g b n : ℝ) : EReal) := by
  unfold lpK R.lpK
  rw [denK_coe, Ideal.log_coe, if_neg (not_le.2 (R.denK_pos epsR X g epsR_pos b n)), EReal.coe_sub]

theorem colLoss_coe (n : Fin 128) :
    colLoss (fun i => ((X i : ℝ) : EReal)) (fun i => ((Y i : ℝ) : EReal)) g n
      = ((R.colLoss epsR X Y g n : ℝ) : EReal) := by
  unfold colLoss R.colLoss
  have h : ∀ b : Fin 131072, lpK (fun i => ((X i : ℝ) : EReal)) g b n * ((Y (ix2 b n) : ℝ) : EReal)
      = ((R.lpK epsR X g b n * Y (ix2 b n) : ℝ) : EReal) := by
    intro b; rw [lpK_coe, EReal.coe_mul]
  rw [Finset.sum_congr rfl (fun b _ => h b), coe_sum]

theorem weight_coe (n : Fin 128) (hn : R.colCount Y n + epsR ≠ 0) :
    weight (fun i => ((Y i : ℝ) : EReal)) n = ((R.weight epsR Y n : ℝ) : EReal) := by
  unfold weight R.weight
  rw [colCount_coe, eps_eq, c128_eq, cB_eq, ← EReal.coe_add, ← EReal.coe_mul,
    Ideal.div_coe (mul_ne_zero (by norm_num) hn), ← EReal.coe_mul]

theorem kerRes_coe (hn : ∀ n : Fin 128, R.colCount Y n + epsR ≠ 0) :
    kerRes (fun i => ((X i : ℝ) : EReal)) (fun i => ((Y i : ℝ) : EReal)) (fun i => ((D i : ℝ) : EReal)) g
      = ((R.kerRes epsR X Y D g : ℝ) : EReal) := by
  unfold kerRes R.kerRes
  have h : ∀ n : Fin 128,
      (weight (fun i => ((Y i : ℝ) : EReal)) n * decay (fun i => ((D i : ℝ) : EReal)) n)
          * colLoss (fun i => ((X i : ℝ) : EReal)) (fun i => ((Y i : ℝ) : EReal)) g n
        = (((R.weight epsR Y n * R.decay D n) * R.colLoss epsR X Y g n : ℝ) : EReal) := by
    intro n; rw [weight_coe Y n (hn n), decay_coe, colLoss_coe, EReal.coe_mul, EReal.coe_mul]
  rw [Finset.sum_congr rfl (fun n _ => h n), coe_sum, z_eq, cB_eq,
    Ideal.div_coe (by norm_num : (131072 : ℝ) ≠ 0), ← EReal.coe_zero, ← EReal.coe_add, ← EReal.coe_neg,
    ← EReal.coe_mul]

/-! ## Second spelling -/

theorem groupSum_coe (b : Fin 131072) (k : Fin 32) :
    groupSum (fun i => ((X i : ℝ) : EReal)) g b k = ((R.groupSum X g b k : ℝ) : EReal) := by
  unfold groupSum R.groupSum
  have h : ∀ j : Fin 128, Ideal.exp ((X (ix2 b j) : ℝ) : EReal) * hot g j k
      = ((Real.exp (X (ix2 b j)) * R.hot g j k : ℝ) : EReal) := by
    intro j; rw [Ideal.exp_coe, hot_coe, EReal.coe_mul]
  rw [Finset.sum_congr rfl (fun j _ => h j), coe_sum]

theorem denR_coe (b : Fin 131072) (n : Fin 128) :
    denR (fun i => ((X i : ℝ) : EReal)) g b n = ((R.denR epsR X g b n : ℝ) : EReal) := by
  unfold denR R.denR
  have h : ∀ k : Fin 32, groupSum (fun i => ((X i : ℝ) : EReal)) g b k * hot g n k
      = ((R.groupSum X g b k * R.hot g n k : ℝ) : EReal) := by
    intro k; rw [groupSum_coe, hot_coe, EReal.coe_mul]
  rw [Finset.sum_congr rfl (fun k _ => h k), coe_sum, eps_eq, EReal.coe_add]

theorem lpR_coe (hg : ∀ n : Fin 128, ∃ k : Fin 32, g (ix1 n) = BitVec.ofNat 32 k.val)
    (b : Fin 131072) (n : Fin 128) :
    lpR (fun i => ((X i : ℝ) : EReal)) g b n = ((R.lpR epsR X g b n : ℝ) : EReal) := by
  have hpos : 0 < R.denR epsR X g b n := by
    rw [R.denR_eq_denK epsR X g hg b n]; exact R.denK_pos epsR X g epsR_pos b n
  have hq : 0 < Real.exp (X (ix2 b n)) * (1 / R.denR epsR X g b n) :=
    mul_pos (Real.exp_pos _) (one_div_pos.2 hpos)
  unfold lpR R.lpR
  rw [denR_coe, Ideal.exp_coe, Ideal.div_coe (ne_of_gt hpos), ← EReal.coe_mul, Ideal.log_coe,
    if_neg (not_le.2 hq)]

theorem weightR_coe (n : Fin 128) (hn : R.colCount Y n + epsR ≠ 0) :
    weightR (fun i => ((Y i : ℝ) : EReal)) n = ((R.weightR epsR Y n : ℝ) : EReal) := by
  unfold weightR R.weightR
  rw [colCount_coe, eps_eq, c128_eq, cB_eq, z_eq, ← EReal.coe_zero, ← EReal.coe_add, ← EReal.coe_add,
    ← EReal.coe_mul, Ideal.div_coe (mul_ne_zero (by norm_num) (by rw [zero_add]; exact hn)), ← EReal.coe_mul]

theorem refRes_coe (hg : ∀ n : Fin 128, ∃ k : Fin 32, g (ix1 n) = BitVec.ofNat 32 k.val)
    (hn : ∀ n : Fin 128, R.colCount Y n + epsR ≠ 0) :
    refRes (fun i => ((X i : ℝ) : EReal)) (fun i => ((Y i : ℝ) : EReal)) (fun i => ((D i : ℝ) : EReal)) g
      = ((R.refRes epsR X Y D g : ℝ) : EReal) := by
  unfold refRes R.refRes
  have h : ∀ (b : Fin 131072) (n : Fin 128),
      (weightR (fun i => ((Y i : ℝ) : EReal)) n
          * (lpR (fun i => ((X i : ℝ) : EReal)) g b n * decay (fun i => ((D i : ℝ) : EReal)) n))
          * ((Y (ix2 b n) : ℝ) : EReal)
        = (((R.weightR epsR Y n * (R.lpR epsR X g b n * R.decay D n)) * Y (ix2 b n) : ℝ) : EReal) := by
    intro b n
    rw [weightR_coe Y n (hn n), lpR_coe X g hg, decay_coe, EReal.coe_mul, EReal.coe_mul, EReal.coe_mul]
  have h' : ∀ b : Fin 131072,
      z + ∑ n : Fin 128, (weightR (fun i => ((Y i : ℝ) : EReal)) n
          * (lpR (fun i => ((X i : ℝ) : EReal)) g b n * decay (fun i => ((D i : ℝ) : EReal)) n))
          * ((Y (ix2 b n) : ℝ) : EReal)
        = (((0 + ∑ n : Fin 128, (R.weightR epsR Y n * (R.lpR epsR X g b n * R.decay D n)) * Y (ix2 b n) : ℝ)) : EReal) := by
    intro b
    rw [Finset.sum_congr rfl (fun n _ => h b n), coe_sum, z_eq, ← EReal.coe_zero, ← EReal.coe_add]
  rw [Finset.sum_congr rfl (fun b _ => h' b), coe_sum, z_eq, cB_eq,
    Ideal.div_coe (by norm_num : (131072 : ℝ) ≠ 0), ← EReal.coe_zero, ← EReal.coe_add, ← EReal.coe_mul,
    ← EReal.coe_neg]

end Cert.Hand

end
-- ==== Proof.Bridge.lean ====
/-
  The two spellings of the loss in Spec.lean agree at real inputs.

  With every input a real number, each spelling is the coercion of a real formula (BridgeCoe.lean), and the two real
  formulas are equal (BridgeReal.lean).  The hypothesis on the column counts says that count + e is not zero, which
  makes the weight's divisor 128 * (count + e) a nonzero real; the hypothesis on the group ids says every id is a
  group below 32, which makes the sum over groups of products of one-hot entries the equality test of two ids.
-/
import proofs.«400292_j65549790872061_3_alg».proof.Proof.BridgeCoe

noncomputable section

open scoped BigOperators

namespace Cert.Hand

open Idealize.ShloMosaic Idealize.ShloMosaic.ValueIdx

theorem kerRes_eq_refRes (X Y : SBN.Idx → ℝ) (D : SN.Idx → ℝ) (g : SN.Idx → BitVec 32)
    (hg : ∀ n : Fin 128, ∃ k : Fin 32, g (ix1 n) = BitVec.ofNat 32 k.val)
    (hc : ∀ n : Fin 128, (z + colCount (fun i => ((Y i : ℝ) : EReal)) n) + eps ≠ z) :
    kerRes (fun i => ((X i : ℝ) : EReal)) (fun i => ((Y i : ℝ) : EReal)) (fun i => ((D i : ℝ) : EReal)) g
      = refRes (fun i => ((X i : ℝ) : EReal)) (fun i => ((Y i : ℝ) : EReal)) (fun i => ((D i : ℝ) : EReal)) g := by
  have hn : ∀ n : Fin 128, R.colCount Y n + epsR ≠ 0 := by
    intro n h0
    apply hc n
    rw [colCount_coe, eps_eq, z_eq, zero_add, ← EReal.coe_add, h0, EReal.coe_zero]
  rw [kerRes_coe X Y D g hn, refRes_coe X Y D g hg hn, R.kerRes_eq_refRes epsR X Y D g epsR_pos hg]

end Cert.Hand

end
-- ==== Proof.lean ====
/- The fused loss kernel against its reference, over the extended reals.

   Both programs compute a weighted cross-entropy over 131072 rows and 128 taxonomy nodes in 32 sibling groups:
   log-probabilities of a softmax taken within each node's sibling group (every denominator shifted by a small positive
   constant), multiplied by the targets, weighted per node by  rows / (nodes * (column count + constant))  and by
   exp(-depth / 2), summed, negated and divided by the number of rows.

   The kernel streams the batch in 16 tiles of 8192 rows, two halves of 8 tiles, accumulating per half the column sums
   of log-probability * target and of the targets into row 0 of an [8, 128] tile; its group sums are one matrix product
   with the 128 by 128 same-group matrix, its log-probabilities x - log(denominator), and the per-node weight is applied
   after the sums.  The reference forms the group sums through the one-hot matrix of the group ids over 32 groups, takes
   log(exp x / denominator), and weights every entry before summing.

   The two agree where every float input is finite, every group id lies in 0 ... 31 (outside that range the reference's
   one-hot row is zero while the kernel's equality test still groups the node with its equals) and no column count
   cancels the constant exactly (there the reference divides by zero): then every intermediate is a real number and
   the agreement is real algebra — the sum over groups of products of one-hot entries is the equality test of two ids,
   log(exp x / s) = x - log s for s > 0, and a weight that depends on the node alone moves out of the sum over rows. -/
import proofs.«400292_j65549790872061_3_alg».proof.Defs
import proofs.«400292_j65549790872061_3_alg».proof.Proof.Gen.Kernel
import proofs.«400292_j65549790872061_3_alg».proof.Proof.Gen.Kernel.Skeleton
import proofs.«400292_j65549790872061_3_alg».proof.Proof.Gen.Kernel.Launch
import proofs.«400292_j65549790872061_3_alg».proof.Proof.Gen.Kernel.Points
import proofs.«400292_j65549790872061_3_alg».proof.Proof.Gen.Kernel.Frame
import proofs.«400292_j65549790872061_3_alg».proof.Proof.Gen.KernelIdeal
import proofs.«400292_j65549790872061_3_alg».proof.Proof.Gen.KernelIdeal.Skeleton
import proofs.«400292_j65549790872061_3_alg».proof.Proof.Gen.KernelIdeal.Launch
import proofs.«400292_j65549790872061_3_alg».proof.Proof.Gen.KernelIdeal.Points
import proofs.«400292_j65549790872061_3_alg».proof.Proof.Gen.KernelIdeal.Frame
import proofs.«400292_j65549790872061_3_alg».proof.Proof.Gen.ReferenceIdeal
import proofs.«400292_j65549790872061_3_alg».proof.Proof.Gen.ReferenceIdeal.Run
import proofs.«400292_j65549790872061_3_alg».proof.Proof.Gen.ReferenceIdeal.Read
import proofs.«400292_j65549790872061_3_alg».proof.Proof.Gen.Pre_finite_inputs
import proofs.«400292_j65549790872061_3_alg».proof.Proof.KerValue
import proofs.«400292_j65549790872061_3_alg».proof.Proof.RefValue
import proofs.«400292_j65549790872061_3_alg».proof.Proof.PreDecode
import proofs.«400292_j65549790872061_3_alg».proof.Proof.Bridge
import Idealize.ShloMosaic.Adequacy
import Idealize.ShloMosaic.Init

noncomputable section

namespace Cert.Hand

open Idealize.ShloMosaic Idealize.ShloMosaic.ValueIdx

/-- Under the precondition the two spellings of the loss agree: the inputs are real, the group ids are groups, and
    no weight divides by zero. -/
theorem loss_eq (x y : SBN.Idx → EReal) (d : SN.Idx → EReal) (g : SN.Idx → BitVec 32)
    (h : Cert.Pre_finite_inputs.fn (F := Ideal) x y d g = fun _ => 1#1) : kerRes x y d g = refRes x y d g := by
  obtain ⟨⟨X, rfl⟩, ⟨Y, rfl⟩, ⟨D, rfl⟩, hg, hc⟩ := pre_decode x y d g h
  exact kerRes_eq_refRes X Y D g hg hc

end Cert.Hand

namespace Cert.Proof

open Idealize.ShloMosaic Idealize.SL.Sem

/-- Each program runs to the end without a fault and leaves its arguments as they were. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten for its reading over the extended reals. -/
theorem preserves : Cert.preserves_Kernel_KernelIdeal := trivial

/-- The kernel ends at the first spelling of the loss, the reference at the second, and under the precondition the two
    are one extended real. -/
theorem algebraic : Cert.algebraic_KernelIdeal_ReferenceIdeal := by
  intro m ρ m' ρ' hpre hagree
  refine ⟨fun c => fun _ => Cert.Hand.kerRes
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v29_eq _ _ _ _).trans ((Cert.Hand.ref_value _ _ _ _).trans
    (funext fun _ => (Cert.Hand.loss_eq _ _ _ _ (hpre c)).symm))

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
